-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96x256 : Shape := ⟨3, ![16, 96, 256]⟩
abbrev S16x96x96x11 : Shape := ⟨4, ![16, 96, 96, 11]⟩
abbrev S256x256 : Shape := ⟨2, ![256, 256]⟩
abbrev S11x256 : Shape := ⟨2, ![11, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x96x256 : S_.BroadcastsInDim S16x96x256 (![] : Fin 0 → Fin S16x96x256.rank)
  reducesTo_S16x96x256_S_d0_1_2 : S16x96x256.ReducesTo [0, 1, 2] S_
  h_S_ : 0 < S_.numel
  bcast_S_S16x96x96x11 : S_.BroadcastsInDim S16x96x96x11 (![] : Fin 0 → Fin S16x96x96x11.rank)
  reducesTo_S16x96x96x11_S_d0_1_2_3 : S16x96x96x11.ReducesTo [0, 1, 2, 3] S_
  bcast_S_S256x256 : S_.BroadcastsInDim S256x256 (![] : Fin 0 → Fin S256x256.rank)
  reducesTo_S256x256_S_d0_1 : S256x256.ReducesTo [0, 1] S_
  bcast_S_S11x256 : S_.BroadcastsInDim S11x256 (![] : Fin 0 → Fin S11x256.rank)
  reducesTo_S11x256_S_d0_1 : S11x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S11x256 1) : IVec S_ 1 :=
  let main_c_5 : IVec S_ 1 := constantI S_ 1 1#1
  let main_v17 : IVec S_ 1 := (fun x v => Host.reduce IntOp.andi x v reducesTo_S11x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x96x256 .f32) (main_arg1 : FVec F S16x96x96x11 .f32) (main_arg2 : FVec F S256x256 .f32) (main_arg3 : FVec F S11x256 .f32) (main_arg4 : FVec F S256 .f32) (main_arg5 : FVec F S256x1 .f32) (main_arg6 : FVec F S1 .f32) : IVec S_ 1 :=
  let main_v0 : FVec F S16x96x256 .f32 := Host.absf main_arg0
  let main_cst : FVec F S_ .f32 := constant S_ .f32 0x7F800000#32
  let main_v1 : FVec F S16x96x256 .f32 := broadcastInDim S16x96x256 ![] bcast_S_S16x96x256 main_cst
  let main_v2 : IVec S16x96x256 1 := cmpf .olt main_v0 main_v1
  let main_c : IVec S_ 1 := constantI S_ 1 1#1
  let main_v3 : IVec S_ 1 := (fun x v => Host.reduce IntOp.andi x v reducesTo_S16x96x256_S_d0_1_2 h_S_) main_v2 main_c
  let main_v4 : FVec F S16x96x96x11 .f32 := Host.absf main_arg1
  let main_cst_0 : FVec F S_ .f32 := constant S_ .f32 0x7F800000#32
  let main_v5 : FVec F S16x96x96x11 .f32 := broadcastInDim S16x96x96x11 ![] bcast_S_S16x96x96x11 main_cst_0
  let main_v6 : IVec S16x96x96x11 1 := cmpf .olt main_v4 main_v5
  let main_c_1 : IVec S_ 1 := constantI S_ 1 1#1
  let main_v7 : IVec S_ 1 := (fun x v => Host.reduce IntOp.andi x v reducesTo_S16x96x96x11_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S11x256 .f32 := Host.absf main_arg3
  let main_cst_4 : FVec F S_ .f32 := constant S_ .f32 0x7F800000#32
  let main_v15 : FVec F S11x256 .f32 := broadcastInDim S11x256 ![] bcast_S_S11x256 main_cst_4
  let main_v16 : IVec S11x256 1 := cmpf .olt main_v14 main_v15
  fn_part1 (F := F) main_arg4 main_arg5 main_arg6 main_v13 main_v16
-- ==== Kernel.lean ====
abbrev S16x96x256 : Shape := ⟨3, ![16, 96, 256]⟩
abbrev S16x96x96x11 : Shape := ⟨4, ![16, 96, 96, 11]⟩
abbrev S256x256 : Shape := ⟨2, ![256, 256]⟩
abbrev S11x256 : Shape := ⟨2, ![11, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S16x96x96x256 : Shape := ⟨4, ![16, 96, 96, 256]⟩
abbrev S1x48x256 : Shape := ⟨3, ![1, 48, 256]⟩
abbrev S1x96x256 : Shape := ⟨3, ![1, 96, 256]⟩
abbrev S1x48x96x11 : Shape := ⟨4, ![1, 48, 96, 11]⟩
abbrev S1x48x96x256 : Shape := ⟨4, ![1, 48, 96, 256]⟩
abbrev S48x256 : Shape := ⟨2, ![48, 256]⟩
abbrev S96x256 : Shape := ⟨2, ![96, 256]⟩
abbrev S48x96x11 : Shape := ⟨3, ![48, 96, 11]⟩
abbrev S48x1x256 : Shape := ⟨3, ![48, 1, 256]⟩
abbrev S48x96x256 : Shape := ⟨3, ![48, 96, 256]⟩
abbrev S4608x256 : Shape := ⟨2, ![4608, 256]⟩
abbrev S4608x11 : Shape := ⟨2, ![4608, 11]⟩
abbrev S1x1x256 : Shape := ⟨3, ![1, 1, 256]⟩
abbrev S48x96 : Shape := ⟨2, ![48, 96]⟩

abbrev nBuf : Space → Nat
  | .hbm => 14
  | .vmem => 15
  | .smem => 0
  | _ => 0

abbrev bufTy : (tb : Table) → Fin (tcTables nBuf tb) → BufTy
  | .hbm, ⟨0, _⟩ => ⟨S16x96x256, .f32⟩
  | .hbm, ⟨1, _⟩ => ⟨S16x96x96x11, .f32⟩
  | .hbm, ⟨2, _⟩ => ⟨S256x256, .f32⟩
  | .hbm, ⟨3, _⟩ => ⟨S11x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S256x256, .bf16⟩
  | .hbm, ⟨8, _⟩ => ⟨S11x256, .bf16⟩
  | .hbm, ⟨9, _⟩ => ⟨S1x256, .f32⟩
  | .hbm, ⟨10, _⟩ => ⟨S1x256, .f32⟩
  | .hbm, ⟨11, _⟩ => ⟨S1x1, .f32⟩
  | .hbm, ⟨12, _⟩ => ⟨S16x96x96x256, .f32⟩
  | .hbm, ⟨13, _⟩ => ⟨S16x96x256, .f32⟩
  | .local _ .vmem, ⟨0, _⟩ => ⟨S1x48x256, .f32⟩
  | .local _ .vmem, ⟨1, _⟩ => ⟨S1x48x256, .f32⟩
  | .local _ .vmem, ⟨2, _⟩ => ⟨S1x96x256, .f32⟩
  | .local _ .vmem, ⟨3, _⟩ => ⟨S1x96x256, .f32⟩
  | .local _ .vmem, ⟨4, _⟩ => ⟨S1x48x96x11, .f32⟩
  | .local _ .vmem, ⟨5, _⟩ => ⟨S1x48x96x11, .f32⟩
  | .local _ .vmem, ⟨6, _⟩ => ⟨S256x256, .bf16⟩
  | .local _ .vmem, ⟨7, _⟩ => ⟨S11x256, .bf16⟩
  | .local _ .vmem, ⟨8, _⟩ => ⟨S1x256, .f32⟩
  | .local _ .vmem, ⟨9, _⟩ => ⟨S1x256, .f32⟩
  | .local _ .vmem, ⟨10, _⟩ => ⟨S1x1, .f32⟩
  | .local _ .vmem, ⟨11, _⟩ => ⟨S1x48x96x256, .f32⟩
  | .local _ .vmem, ⟨12, _⟩ => ⟨S1x48x96x256, .f32⟩
  | .local _ .vmem, ⟨13, _⟩ => ⟨S1x48x256, .f32⟩
  | .local _ .vmem, ⟨14, _⟩ => ⟨S1x48x256, .f32⟩
  | _, _ => ⟨S16x96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x48x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x48x96x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x48x96x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x48x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  shapeCasts_S256_S1x256 : S256.ShapeCasts S1x256
  shapeCasts_S256x1_S1x256 : S256x1.ShapeCasts S1x256
  shapeCasts_S1_S1x1 : S1.ShapeCasts S1x1
  inb_S1x48x256_S1x48x256_0_0_0 : ∀ a, (![0, 0, 0] : Fin 3 → Nat) a + S1x48x256.size a ≤ S1x48x256.size a
  h_S1x48x256 : 0 < S1x48x256.numel
  shapeCasts_S1x48x256_S48x256 : S1x48x256.ShapeCasts S48x256
  inb_S1x96x256_S1x96x256_0_0_0 : ∀ a, (![0, 0, 0] : Fin 3 → Nat) a + S1x96x256.size a ≤ S1x96x256.size a
  h_S1x96x256 : 0 < S1x96x256.numel
  shapeCasts_S1x96x256_S96x256 : S1x96x256.ShapeCasts S96x256
  inb_S1x48x96x11_S1x48x96x11_0_0_0_0 : ∀ a, (![0, 0, 0, 0] : Fin 4 → Nat) a + S1x48x96x11.size a ≤ S1x48x96x11.size a
  h_S1x48x96x11 : 0 < S1x48x96x11.numel
  shapeCasts_S1x48x96x11_S48x96x11 : S1x48x96x11.ShapeCasts S48x96x11
  shapeCasts_S48x256_S48x1x256 : S48x256.ShapeCasts S48x1x256
  shapeCasts_S96x256_S1x96x256 : S96x256.ShapeCasts S1x96x256
  broadcasts_S48x1x256_S48x96x256 : S48x1x256.Broadcasts S48x96x256
  broadcasts_S1x96x256_S48x96x256 : S1x96x256.Broadcasts S48x96x256
  inb_S1x48x96x256_S1x48x96x256_0_0_0_0 : ∀ a, (![0, 0, 0, 0] : Fin 4 → Nat) a + S1x48x96x256.size a ≤ S1x48x96x256.size a
  h_S1x48x96x256 : 0 < S1x48x96x256.numel
  shapeCasts_S1x48x96x256_S48x96x256 : S1x48x96x256.ShapeCasts S48x96x256
  shapeCasts_S48x96x256_S1x48x96x256 : S48x96x256.ShapeCasts S1x48x96x256
  shapeCasts_S48x96x256_S4608x256 : S48x96x256.ShapeCasts S4608x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4608x256_S48x96x256 : S4608x256.ShapeCasts S48x96x256
  shapeCasts_S48x96x11_S4608x11 : S48x96x11.ShapeCasts S4608x11
  inb_S11x256_S11x256_0_0 : ∀ a, (![0, 0] : Fin 2 → Nat) a + S11x256.size a ≤ S11x256.size a
  h_S11x256 : 0 < S11x256.numel
  shapeCasts_S11x256_S11x256 : S11x256.ShapeCasts S11x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S48x96x256 : S1x1x256.Broadcasts S48x96x256
  reduces_S48x96x256_S48x96 : S48x96x256.Reduces [2] S48x96
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S48x96 : S1x1.Broadcasts S48x96
  shapeCasts_S48x256_S1x48x256 : S48x256.ShapeCasts S1x48x256
  dot_S4608x256_S256x256_S4608x256_1_0_0_1_n_n_wf : DotDims.WF S4608x256 S256x256 S4608x256 [1] [0] [0] [1] [] []
  dot_S4608x11_S11x256_S4608x256_1_0_0_1_n_n_wf : DotDims.WF S4608x11 S11x256 S4608x256 [1] [0] [0] [1] [] []
  dot_S48x96_S96x256_S48x256_1_0_0_1_n_n_wf : DotDims.WF S48x96 S96x256 S48x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x256.size a ≤ S16x96x256.size a
  hwx0_0 : ∀ i : grid0.Coords, EltTy.bits .f32 = 32 ∨ (Rect.block (s := S16x96x256) S1x48x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x256.size a ≤ S16x96x256.size a
  hwx0_1 : ∀ i : grid0.Coords, EltTy.bits .f32 = 32 ∨ (Rect.block (s := S16x96x256) S1x96x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x48x96x11.size a ≤ S16x96x96x11.size a
  hwx0_2 : ∀ i : grid0.Coords, EltTy.bits .f32 = 32 ∨ (Rect.block (s := S16x96x96x11) S1x48x96x11.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11x256.size a ≤ S11x256.size a
  hwx0_4 : ∀ i : grid0.Coords, EltTy.bits .bf16 = 32 ∨ (Rect.block (s := S11x256) S11x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x48x96x256.size a ≤ S16x96x96x256.size a
  hwx0_8 : ∀ i : grid0.Coords, EltTy.bits .f32 = 32 ∨ (Rect.block (s := S16x96x96x256) S1x48x96x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x48x256.size a ≤ S16x96x256.size a
  hwx0_9 : ∀ i : grid0.Coords, EltTy.bits .f32 = 32 ∨ (Rect.block (s := S16x96x256) S1x48x256.size (cc0_transform_9 i) (hinb0_9 i)).WholeWords (EltTy.packing .f32)

variable [Facts₀]

def dot_S4608x256_S256x256_S4608x256_1_0_0_1_n_n : DotDims S4608x256 S256x256 S4608x256 where
  lhsContracting := [1]
  rhsContracting := [0]
  lhsNonContracting := [0]
  rhsNonContracting := [1]
  lhsBatch := []
  rhsBatch := []
  wf := dot_S4608x256_S256x256_S4608x256_1_0_0_1_n_n_wf
def dot_S4608x11_S11x256_S4608x256_1_0_0_1_n_n : DotDims S4608x11 S11x256 S4608x256 where
  lhsContracting := [1]
  rhsContracting := [0]
  lhsNonContracting := [0]
  rhsNonContracting := [1]
  lhsBatch := []
  rhsBatch := []
  wf := dot_S4608x11_S11x256_S4608x256_1_0_0_1_n_n_wf
def dot_S48x96_S96x256_S48x256_1_0_0_1_n_n : DotDims S48x96 S96x256 S48x256 where
  lhsContracting := [1]
  rhsContracting := [0]
  lhsNonContracting := [0]
  rhsNonContracting := [1]
  lhsBatch := []
  rhsBatch := []
  wf := dot_S48x96_S96x256_S48x256_1_0_0_1_n_n_wf

abbrev win0_0 : Pipeline.Window sig grid0 :=
  Pipeline.Window.ofSpec (Memref.whole main_arg0) S1x48x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x96x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x48x96x11.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S11x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1x48x96x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1x48x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x96x256 : Shape := ⟨3, ![16, 96, 256]⟩
abbrev S16x96x96x11 : Shape := ⟨4, ![16, 96, 96, 11]⟩
abbrev S256x256 : Shape := ⟨2, ![256, 256]⟩
abbrev S11x256 : Shape := ⟨2, ![11, 256]⟩
abbrev S256 : Shape := ⟨1, ![256]⟩
abbrev S256x1 : Shape := ⟨2, ![256, 1]⟩
abbrev S1 : Shape := ⟨1, ![1]⟩
abbrev S16x1x96x256 : Shape := ⟨4, ![16, 1, 96, 256]⟩
abbrev S16x96x1x256 : Shape := ⟨4, ![16, 96, 1, 256]⟩
abbrev S16x96x96x256 : Shape := ⟨4, ![16, 96, 96, 256]⟩
abbrev S1x1x1x256 : Shape := ⟨4, ![1, 1, 1, 256]⟩
abbrev S_ : Shape := ⟨0, ![]⟩
abbrev S16x96x96x1 : Shape := ⟨4, ![16, 96, 96, 1]⟩
abbrev S1x1x1x1 : Shape := ⟨4, ![1, 1, 1, 1]⟩
abbrev S16x96x96 : Shape := ⟨3, ![16, 96, 96]⟩

abbrev nBuf : Space → Nat
  | .hbm => 36
  | .vmem => 0
  | .smem => 0
  | _ => 0

abbrev bufTy : (tb : Table) → Fin (tcTables nBuf tb) → BufTy
  | .hbm, ⟨0, _⟩ => ⟨S16x96x256, .f32⟩
  | .hbm, ⟨1, _⟩ => ⟨S16x96x96x11, .f32⟩
  | .hbm, ⟨2, _⟩ => ⟨S256x256, .f32⟩
  | .hbm, ⟨3, _⟩ => ⟨S11x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S16x1x96x256, .f32⟩
  | .hbm, ⟨8, _⟩ => ⟨S16x96x1x256, .f32⟩
  | .hbm, ⟨9, _⟩ => ⟨S16x96x96x256, .f32⟩
  | .hbm, ⟨10, _⟩ => ⟨S16x96x96x256, .f32⟩
  | .hbm, ⟨11, _⟩ => ⟨S16x96x96x256, .f32⟩
  | .hbm, ⟨12, _⟩ => ⟨S16x96x96x256, .f32⟩
  | .hbm, ⟨13, _⟩ => ⟨S16x96x96x256, .f32⟩
  | .hbm, ⟨14, _⟩ => ⟨S16x96x96x256, .f32⟩
  | .hbm, ⟨15, _⟩ => ⟨S1x1x1x256, .f32⟩
  | .hbm, ⟨16, _⟩ => ⟨S16x96x96x256, .f32⟩
  | .hbm, ⟨17, _⟩ => ⟨S16x96x96x256, .f32⟩
  | .hbm, ⟨18, _⟩ => ⟨S_, .f32⟩
  | .hbm, ⟨19, _⟩ => ⟨S16x96x96x256, .f32⟩
  | .hbm, ⟨20, _⟩ => ⟨S16x96x96x256, .f32⟩
  | .hbm, ⟨21, _⟩ => ⟨S16x96x96x1, .f32⟩
  | .hbm, ⟨22, _⟩ => ⟨S1x1x1x1, .f32⟩
  | .hbm, ⟨23, _⟩ => ⟨S16x96x96x1, .f32⟩
  | .hbm, ⟨24, _⟩ => ⟨S16x96x96x1, .f32⟩
  | .hbm, ⟨25, _⟩ => ⟨S16x96x96x1, .f32⟩
  | .hbm, ⟨26, _⟩ => ⟨S16x96x96x1, .f32⟩
  | .hbm, ⟨27, _⟩ => ⟨S_, .f32⟩
  | .hbm, ⟨28, _⟩ => ⟨S16x96x96x1, .f32⟩
  | .hbm, ⟨29, _⟩ => ⟨S16x96x96x1, .f32⟩
  | .hbm, ⟨30, _⟩ => ⟨S_, .f32⟩
  | .hbm, ⟨31, _⟩ => ⟨S16x96x96x1, .f32⟩
  | .hbm, ⟨32, _⟩ => ⟨S16x96x96x1, .f32⟩
  | .hbm, ⟨33, _⟩ => ⟨S_, .f32⟩
  | .hbm, ⟨34, _⟩ => ⟨S16x96x96, .f32⟩
  | .hbm, ⟨35, _⟩ => ⟨S16x96x256, .f32⟩
  | _, _ => ⟨S16x96x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S16x96x256_S16x1x96x256_0_2_3 : S16x96x256.BroadcastsInDim S16x1x96x256 (![0, 2, 3] : Fin 3 → Fin S16x1x96x256.rank)
  bcast_S16x96x256_S16x96x1x256_0_1_3 : S16x96x256.BroadcastsInDim S16x96x1x256 (![0, 1, 3] : Fin 3 → Fin S16x96x1x256.rank)
  bcast_S16x1x96x256_S16x96x96x256_0_1_2_3 : S16x1x96x256.BroadcastsInDim S16x96x96x256 (![0, 1, 2, 3] : Fin 4 → Fin S16x96x96x256.rank)
  bcast_S16x96x1x256_S16x96x96x256_0_1_2_3 : S16x96x1x256.BroadcastsInDim S16x96x96x256 (![0, 1, 2, 3] : Fin 4 → Fin S16x96x96x256.rank)
  bcast_S256_S1x1x1x256_3 : S256.BroadcastsInDim S1x1x1x256 (![3] : Fin 1 → Fin S1x1x1x256.rank)
  bcast_S1x1x1x256_S16x96x96x256_0_1_2_3 : S1x1x1x256.BroadcastsInDim S16x96x96x256 (![0, 1, 2, 3] : Fin 4 → Fin S16x96x96x256.rank)
  bcast_S_S16x96x96x256 : S_.BroadcastsInDim S16x96x96x256 (![] : Fin 0 → Fin S16x96x96x256.rank)
  bcast_S1_S1x1x1x1_3 : S1.BroadcastsInDim S1x1x1x1 (![3] : Fin 1 → Fin S1x1x1x1.rank)
  bcast_S1x1x1x1_S16x96x96x1_0_1_2_3 : S1x1x1x1.BroadcastsInDim S16x96x96x1 (![0, 1, 2, 3] : Fin 4 → Fin S16x96x96x1.rank)
  bcast_S_S16x96x96x1 : S_.BroadcastsInDim S16x96x96x1 (![] : Fin 0 → Fin S16x96x96x1.rank)
  reducesTo_S16x96x96x1_S16x96x96_d3 : S16x96x96x1.ReducesTo [3] S16x96x96
  h_S_ : 0 < S_.numel
  dot_S16x96x96x256_S256x256_S16x96x96x256_3_0_012_1_n_n_wf : DotDims.WF S16x96x96x256 S256x256 S16x96x96x256 [3] [0] [0, 1, 2] [1] [] []
  dot_S16x96x96x11_S11x256_S16x96x96x256_3_0_012_1_n_n_wf : DotDims.WF S16x96x96x11 S11x256 S16x96x96x256 [3] [0] [0, 1, 2] [1] [] []
  dot_S16x96x96x256_S256x1_S16x96x96x1_3_0_012_1_n_n_wf : DotDims.WF S16x96x96x256 S256x1 S16x96x96x1 [3] [0] [0, 1, 2] [1] [] []
  dot_S16x96x96_S16x96x256_S16x96x256_2_1_1_2_0_0_wf : DotDims.WF S16x96x96 S16x96x256 S16x96x256 [2] [1] [1] [2] [0] [0]

variable [Facts₀]

def dot_S16x96x96x256_S256x256_S16x96x96x256_3_0_012_1_n_n : DotDims S16x96x96x256 S256x256 S16x96x96x256 where
  lhsContracting := [3]
  rhsContracting := [0]
  lhsNonContracting := [0, 1, 2]
  rhsNonContracting := [1]
  lhsBatch := []
  rhsBatch := []
  wf := dot_S16x96x96x256_S256x256_S16x96x96x256_3_0_012_1_n_n_wf
def dot_S16x96x96x11_S11x256_S16x96x96x256_3_0_012_1_n_n : DotDims S16x96x96x11 S11x256 S16x96x96x256 where
  lhsContracting := [3]
  rhsContracting := [0]
  lhsNonContracting := [0, 1, 2]
  rhsNonContracting := [1]
  lhsBatch := []
  rhsBatch := []
  wf := dot_S16x96x96x11_S11x256_S16x96x96x256_3_0_012_1_n_n_wf
def dot_S16x96x96x256_S256x1_S16x96x96x1_3_0_012_1_n_n : DotDims S16x96x96x256 S256x1 S16x96x96x1 where
  lhsContracting := [3]
  rhsContracting := [0]
  lhsNonContracting := [0, 1, 2]
  rhsNonContracting := [1]
  lhsBatch := []
  rhsBatch := []
  wf := dot_S16x96x96x256_S256x1_S16x96x96x1_3_0_012_1_n_n_wf
def dot_S16x96x96_S16x96x256_S16x96x256_2_1_1_2_0_0 : DotDims S16x96x96 S16x96x256 S16x96x256 where
  lhsContracting := [2]
  rhsContracting := [1]
  lhsNonContracting := [1]
  rhsNonContracting := [2]
  lhsBatch := [0]
  rhsBatch := [0]
  wf := dot_S16x96x96_S16x96x256_S16x96x256_2_1_1_2_0_0_wf

class Facts : Prop extends Facts₀ where

variable [Facts]
-- ==== Proof.KData.lean ====
/-
  The proof data of the kernel's one grid loop, at any float instance.

  The grid has 16 × 2 points: point (b, it) handles batch `b` and the 48 query rows [48·it, 48·it + 48). Ten windows:
  0 — rows [48·it, 48·it+48) of batch b of the input (argument 0); 1 — all 96 rows of batch b of the SAME argument;
  2 — the pair features of those query rows (argument 1); 3, 4 — the two weight matrices as the host's
  conversions left them; 5, 6, 7 — bias, score weights and score bias as the host's reshapes left them;
  8 — the output tile of pair sums; 9 — the output tile of context rows.
  What is fixed here: the arrays as the region finds them (`V`: the five host operations applied to the launch
  memory), each window's block at a point (`iblk`), what the body leaves in the two output buffers as functions of
  the eight input blocks (`out8`, `out9`: one covering store each), and the proof data `dats`: inputs left in
  place, outputs at `out8` / `out9`, nothing carried between points, nothing owed; the input argument read by
  windows 0 and 1 is held half and half.
-/
import proofs.«157908_j61744449847590_1_alg».proof.Proof.Gen.Kernel.Launch
import proofs.«157908_j61744449847590_1_alg».proof.Proof.Gen.Kernel.Skeleton
import proofs.«157908_j61744449847590_1_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the region finds each as launched. -/
theorem V_arg (b : Ref sig .tc) (hb : b ≠ main_v0 ∧ b ≠ main_v1 ∧ b ≠ main_v2 ∧ b ≠ main_v3 ∧ b ≠ main_v4) (c : Dev nD) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

theorem V_main_arg0 (c : Dev nD) : V m c main_arg0 = m ((c : Thread nD τ).loc main_arg0) := V_arg m main_arg0 (by decide) c
theorem V_main_arg1 (c : Dev nD) : V m c main_arg1 = m ((c : Thread nD τ).loc main_arg1) := V_arg m main_arg1 (by decide) c
theorem V_main_arg2 (c : Dev nD) : V m c main_arg2 = m ((c : Thread nD τ).loc main_arg2) := V_arg m main_arg2 (by decide) c
theorem V_main_arg3 (c : Dev nD) : V m c main_arg3 = m ((c : Thread nD τ).loc main_arg3) := V_arg m main_arg3 (by decide) c
theorem V_main_arg4 (c : Dev nD) : V m c main_arg4 = m ((c : Thread nD τ).loc main_arg4) := V_arg m main_arg4 (by decide) c
theorem V_main_arg5 (c : Dev nD) : V m c main_arg5 = m ((c : Thread nD τ).loc main_arg5) := V_arg m main_arg5 (by decide) c
theorem V_main_arg6 (c : Dev nD) : V m c main_arg6 = m ((c : Thread nD τ).loc main_arg6) := V_arg m main_arg6 (by decide) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev rX : Rect S1x48x256 := Rect.unit (s := S1x48x256) ![0, 0, 0] S1x48x256.size inb_S1x48x256_S1x48x256_0_0_0
abbrev rXf : Rect S1x96x256 := Rect.unit (s := S1x96x256) ![0, 0, 0] S1x96x256.size inb_S1x96x256_S1x96x256_0_0_0
abbrev rB : Rect S1x48x96x11 := Rect.unit (s := S1x48x96x11) ![0, 0, 0, 0] S1x48x96x11.size inb_S1x48x96x11_S1x48x96x11_0_0_0_0
abbrev rWa : Rect S256x256 := Rect.unit (s := S256x256) ![0, 0] S256x256.size inb_S256x256_S256x256_0_0
abbrev rWb : Rect S11x256 := Rect.unit (s := S11x256) ![0, 0] S11x256.size inb_S11x256_S11x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0
abbrev rP : Rect S1x48x96x256 := Rect.unit (s := S1x48x96x256) ![0, 0, 0, 0] S1x48x96x256.size inb_S1x48x96x256_S1x48x96x256_0_0_0_0

/-! ## What the body leaves in each output buffer -/

/-- The pair tile: one store of the whole buffer, the sum of the query rows and the batch's rows. -/
def out8 (x0 : Vec F S1x48x256 .f32) (x1 : Vec F S1x96x256 .f32) : Vec F S1x48x96x256 .f32 :=
  View.canon [⟨rP, k0_pay4 (View.ld x0 rX) (View.ld x1 rXf)⟩]

/-- The context tile: one store of the whole buffer. -/
def out9 (x0 : Vec F S1x48x256 .f32) (x1 : Vec F S1x96x256 .f32) (x2 : Vec F S1x48x96x11 .f32) (x3 : Vec F S256x256 .bf16)
    (x4 : Vec F S11x256 .bf16) (x5 x6 : Vec F S1x256 .f32) (x7 : Vec F S1x1 .f32) : Vec F S1x48x256 .f32 :=
  View.canon [⟨rX, k0_pay1 (k0_pay2 (View.ld x1 rXf))
    (k0_pay5 (View.ld x0 rX) (View.ld x1 rXf) (View.ld x2 rB) (View.ld x3 rWa) (View.ld x4 rWb) (View.ld x5 rRow))
    (View.ld x6 rRow) (View.ld x7 rOne)⟩]

theorem cover8 (p0 : Vec F S1x48x96x256 .f32) (y : S1x48x96x256.Idx) :
    ∃ pc ∈ ([⟨rP, p0⟩] : List (View.Piece (Elt F) S1x48x96x256 .f32)), y ∈ pc.1.set :=
  View.cover_of_tiled [⟨rP, p0⟩] S1x48x96x256.size (by rfl) y

theorem cover9 (p0 : Vec F S1x48x256 .f32) (y : S1x48x256.Idx) :
    ∃ pc ∈ ([⟨rX, p0⟩] : List (View.Piece (Elt F) S1x48x256 .f32)), y ∈ pc.1.set :=
  View.cover_of_tiled [⟨rX, p0⟩] S1x48x256.size (by rfl) y

/-! ## The proof data -/

/-- Inputs stay at their blocks; the two outputs hold `out8` / `out9` of the point's input blocks. The argument
    windows 0 and 1 both read is held by halves; between points only the scoped rest is kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t)
    | ⟨9, _⟩ => out9 (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) := by dsimp only [dats]
theorem after9 (c : Dev nD) (t : Fin cfg0.N) : (dats m 0 c).after 9 t
    = out9 (iblk m c 0 t) (iblk m c 1 t) (iblk m c 2 t) (iblk m c 3 t) (iblk m c 4 t) (iblk m c 5 t) (iblk m c 6 t) (iblk m c 7 t) := by
  dsimp only [dats]

/-- An input's current buffer holds its block at every point, fetched there or not: unfetched, the block index has
    not moved since the point that fetched it. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
      (fun t => by rw [after7]; unfold Dat.blockOf iblk; rw [A_eq]; try rfl) t d).trans
    (by unfold Dat.fetched Dat.blockOf iblk; rw [A_eq]; try rfl)

end Cert.Kernel.Hand

end
-- ==== Proof.KBody.lean ====
/-
  The kernel body at a grid point: from the eight input buffers at their blocks and the two output buffers at
  anything, it runs without fault to the inputs as they were and the outputs at `out8` / `out9` of the inputs.
  The body loads every input whole, loads the pair buffer before overwriting it whole (the loaded value is never
  used), stores the pair tile, computes, loads the context buffer likewise and stores the context tile.
-/
import proofs.«157908_j61744449847590_1_alg».proof.Proof.KData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs. -/
theorem sound_kernel (c : Dev nD) (E : Set ℕ) (i : grid0.Coords)
    (arg2 : Memref sig .tc .vmem S1x48x256 .f32) (harg2 : arg2.IsWhole) (arg3 : Memref sig .tc .vmem S1x96x256 .f32) (harg3 : arg3.IsWhole)
    (arg4 : Memref sig .tc .vmem S1x48x96x11 .f32) (harg4 : arg4.IsWhole) (arg5 : Memref sig .tc .vmem S256x256 .bf16) (harg5 : arg5.IsWhole)
    (arg6 : Memref sig .tc .vmem S11x256 .bf16) (harg6 : arg6.IsWhole) (arg7 : Memref sig .tc .vmem S1x256 .f32) (harg7 : arg7.IsWhole)
    (arg8 : Memref sig .tc .vmem S1x256 .f32) (harg8 : arg8.IsWhole) (arg9 : Memref sig .tc .vmem S1x1 .f32) (harg9 : arg9.IsWhole)
    (arg10 : Memref sig .tc .vmem S1x48x96x256 .f32) (harg10 : arg10.IsWhole) (arg11 : Memref sig .tc .vmem S1x48x256 .f32) (harg11 : arg11.IsWhole)
    (x0 : Vec F S1x48x256 .f32) (x1 : Vec F S1x96x256 .f32) (x2 : Vec F S1x48x96x11 .f32) (x3 : Vec F S256x256 .bf16)
    (x4 : Vec F S11x256 .bf16) (x5 x6 : Vec F S1x256 .f32) (x7 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (out8 x0 x1)
            ∗ owns (c : Thread nD τ) arg11 fullShare (out9 x0 x1 x2 x3 x4 x5 x6 x7)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8 _)
  iexists _; isplitr
  swap; · iexact H9
  ipureintro
  exact View.read_writes_eq_canon _ _ _ (cover9 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedFrame.lean ====
/-
  The frame run of a one-region pipeline kernel whose INPUT windows may share an array.

  The pipeline library's frame run asks that the windows' arrays be pairwise distinct buffers, so that each
  is held whole. A kernel handed one array through two input windows (a row tile of it and the whole of it,
  say) is outside that: the array's full share has to be dealt among the windows that read it. The launch
  theorem that allows this takes, in place of the arrays' distinctness, an entailment `hsplit` saying how
  the distinct buffers behind the arrays, each whole at its region-entry contents, make the proof data's
  `arrays`. This file states the frame run over that theorem: for proof data whose invariant is the scoped
  rest (nothing carried between grid points, no generator register), nothing owed, and a given `hsplit`,
  every weakly fair execution terminates in a state satisfying `Pipeline.FramePost` — every window's array
  at the library's `Dat.arrAt … N`, every other unscoped buffer as the region found it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for windows that may share arrays. `hinj`, `hw`, `hne`, `harr`, `hstage` are the layout facts
    a printed program decides (its staging cells distinct; arrays unscoped, staging buffers scoped and distinct;
    no empty block; arrays and staging memrefs whole buffers). The proof data keep between points only the
    scoped rest (`hΦ`) and owe nothing; `hsplit` deals the buffers behind the arrays among the windows. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, Hr⟩
      iexact Hr)
    (hout := fun c => by
      rw [hΦ]
      iintro Hr
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.KRun.lean ====
/-
  The run of the kernel's program and its frame, at any float instance.

  The launch deals the core the nine distinct buffers behind the ten windows' arrays, each whole at its contents
  when the region is entered. The argument read through windows 0 and 1 is split into its two halves, one per
  window; every other array goes to its one window whole. With the body obligation and the program's shape up to
  the region, the frame run for windows sharing an array gives: every weakly fair execution terminates, the
  arrays end at what the write-backs compute, every other unscoped buffer as the region found it. The seven
  arguments are inputs of windows or bypass the region, and no host operation writes them: they end as launched.
-/
import proofs.«157908_j61744449847590_1_alg».proof.Proof.KBody
import proofs.«157908_j61744449847590_1_alg».proof.Proof.LibSharedFrame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5_0) ↦{fullShare} W main_v5_0)
          ∗ (((c : Thread nD τ).loc main_v5_1) ↦{fullShare} W main_v5_1)) := by
  unfold Pipeline.arrBufs
  exact bigSep_eq_bigSepL_of_eq [main_arg0, main_arg1, main_v0, main_v1, main_v2, main_v3, main_v4, main_v5_0, main_v5_1] (by decide) (by decide) _

/-- The proof data's arrays as points-tos of the buffers behind them, each at its window's share. -/
theorem arrays_eq (c : Dev nD) (G : (w : Fin cfg0.W) → Buf (Elt F) ((cfg0.win w).arr.view.loc (c : Thread nD τ))) :
    ((dats m 0 c).arrays G : sProp 𝕄)
      = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

theorem hsplit (c : Dev nD) :
    (Pipeline.arrBufs spec0 c (V m c) : sProp 𝕄) ⊢ (dats m 0 c).arrays ((dats m 0 c).arrAt · 0) := by
  rw [arrBufs_eq, arrays_eq, bigSep_W0]
  iintro ⟨H0, H1, Hv0, Hv1, Hv2, Hv3, Hv4, H50, H51⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [Hv0]; · iexact Hv0
  isplitl [Hv1]; · iexact Hv1
  isplitl [Hv2]; · iexact Hv2
  isplitl [Hv3]; · iexact Hv3
  isplitl [Hv4]; · iexact Hv4
  isplitl [H50]; · iexact H50
  iexact H51

-- the launch theorem's implicit arguments are found by unifying its conclusion with this one, which takes unfolding
-- plain definitions in a metavariable's type
set_option backward.isDefEq.respectTransparency.types false in
/-- From any memory with zero counters every weakly fair execution of the program terminates, and every final
    state has each window's array at what the write-backs compute and every other unscoped buffer as the region
    found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- In a final state of the run the seven arguments are as launched. Arguments 0 and 1 are inputs of windows (an
    input's array is never written back); arguments 2 to 6 bypass the region; no host operation writes any. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c),
    ((h c).2 main_arg5 (Pipeline.mem_restRefs_of main_arg5 rfl (by decide))).trans (V_main_arg5 m c),
    ((h c).2 main_arg6 (Pipeline.mem_restRefs_of main_arg6 rfl (by decide))).trans (V_main_arg6 m c)⟩

/-- The frame: the program runs to the end without fault and its seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.Kernel.Hand

end
-- ==== Proof.KIData.lean ====
/-
  The proof data of the kernel's one grid loop, at any float instance.

  The grid has 16 × 2 points: point (b, it) handles batch `b` and the 48 query rows [48·it, 48·it + 48). Ten windows:
  0 — rows [48·it, 48·it+48) of batch b of the input (argument 0); 1 — all 96 rows of batch b of the SAME argument;
  2 — the pair features of those query rows (argument 1); 3, 4 — the two weight matrices as the host's
  conversions left them; 5, 6, 7 — bias, score weights and score bias as the host's reshapes left them;
  8 — the output tile of pair sums; 9 — the output tile of context rows.
  What is fixed here: the arrays as the region finds them (`V`: the five host operations applied to the launch
  memory), each window's block at a point (`iblk`), what the body leaves in the two output buffers as functions of
  the eight input blocks (`out8`, `out9`: one covering store each), and the proof data `dats`: inputs left in
  place, outputs at `out8` / `out9`, nothing carried between points, nothing owed; the input argument read by
  windows 0 and 1 is held half and half.
-/
import proofs.«157908_j61744449847590_1_alg».proof.Proof.Gen.KernelIdeal.Launch
import proofs.«157908_j61744449847590_1_alg».proof.Proof.Gen.KernelIdeal.Skeleton
import proofs.«157908_j61744449847590_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the region finds each as launched. -/
theorem V_arg (b : Ref sig .tc) (hb : b ≠ main_v0 ∧ b ≠ main_v1 ∧ b ≠ main_v2 ∧ b ≠ main_v3 ∧ b ≠ main_v4) (c : Dev nD) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

theorem V_main_arg0 (c : Dev nD) : V m c main_arg0 = m ((c : Thread nD τ).loc main_arg0) := V_arg m main_arg0 (by decide) c
theorem V_main_arg1 (c : Dev nD) : V m c main_arg1 = m ((c : Thread nD τ).loc main_arg1) := V_arg m main_arg1 (by decide) c
theorem V_main_arg2 (c : Dev nD) : V m c main_arg2 = m ((c : Thread nD τ).loc main_arg2) := V_arg m main_arg2 (by decide) c
theorem V_main_arg3 (c : Dev nD) : V m c main_arg3 = m ((c : Thread nD τ).loc main_arg3) := V_arg m main_arg3 (by decide) c
theorem V_main_arg4 (c : Dev nD) : V m c main_arg4 = m ((c : Thread nD τ).loc main_arg4) := V_arg m main_arg4 (by decide) c
theorem V_main_arg5 (c : Dev nD) : V m c main_arg5 = m ((c : Thread nD τ).loc main_arg5) := V_arg m main_arg5 (by decide) c
theorem V_main_arg6 (c : Dev nD) : V m c main_arg6 = m ((c : Thread nD τ).loc main_arg6) := V_arg m main_arg6 (by decide) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev rX : Rect S1x48x256 := Rect.unit (s := S1x48x256) ![0, 0, 0] S1x48x256.size inb_S1x48x256_S1x48x256_0_0_0
abbrev rXf : Rect S1x96x256 := Rect.unit (s := S1x96x256) ![0, 0, 0] S1x96x256.size inb_S1x96x256_S1x96x256_0_0_0
abbrev rB : Rect S1x48x96x11 := Rect.unit (s := S1x48x96x11) ![0, 0, 0, 0] S1x48x96x11.size inb_S1x48x96x11_S1x48x96x11_0_0_0_0
abbrev rWa : Rect S256x256 := Rect.unit (s := S256x256) ![0, 0] S256x256.size inb_S256x256_S256x256_0_0
abbrev rWb : Rect S11x256 := Rect.unit (s := S11x256) ![0, 0] S11x256.size inb_S11x256_S11x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0
abbrev rP : Rect S1x48x96x256 := Rect.unit (s := S1x48x96x256) ![0, 0, 0, 0] S1x48x96x256.size inb_S1x48x96x256_S1x48x96x256_0_0_0_0

/-! ## What the body leaves in each output buffer -/

/-- The pair tile: one store of the whole buffer, the sum of the query rows and the batch's rows. -/
def out8 (x0 : Vec F S1x48x256 .f32) (x1 : Vec F S1x96x256 .f32) : Vec F S1x48x96x256 .f32 :=
  View.canon [⟨rP, k0_pay4 (View.ld x0 rX) (View.ld x1 rXf)⟩]

/-- The context tile: one store of the whole buffer. -/
def out9 (x0 : Vec F S1x48x256 .f32) (x1 : Vec F S1x96x256 .f32) (x2 : Vec F S1x48x96x11 .f32) (x3 : Vec F S256x256 .bf16)
    (x4 : Vec F S11x256 .bf16) (x5 x6 : Vec F S1x256 .f32) (x7 : Vec F S1x1 .f32) : Vec F S1x48x256 .f32 :=
  View.canon [⟨rX, k0_pay1 (k0_pay2 (View.ld x1 rXf))
    (k0_pay5 (View.ld x0 rX) (View.ld x1 rXf) (View.ld x2 rB) (View.ld x3 rWa) (View.ld x4 rWb) (View.ld x5 rRow))
    (View.ld x6 rRow) (View.ld x7 rOne)⟩]

theorem cover8 (p0 : Vec F S1x48x96x256 .f32) (y : S1x48x96x256.Idx) :
    ∃ pc ∈ ([⟨rP, p0⟩] : List (View.Piece (Elt F) S1x48x96x256 .f32)), y ∈ pc.1.set :=
  View.cover_of_tiled [⟨rP, p0⟩] S1x48x96x256.size (by rfl) y

theorem cover9 (p0 : Vec F S1x48x256 .f32) (y : S1x48x256.Idx) :
    ∃ pc ∈ ([⟨rX, p0⟩] : List (View.Piece (Elt F) S1x48x256 .f32)), y ∈ pc.1.set :=
  View.cover_of_tiled [⟨rX, p0⟩] S1x48x256.size (by rfl) y

/-! ## The proof data -/

/-- Inputs stay at their blocks; the two outputs hold `out8` / `out9` of the point's input blocks. The argument
    windows 0 and 1 both read is held by halves; between points only the scoped rest is kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t)
    | ⟨9, _⟩ => out9 (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) := by dsimp only [dats]
theorem after9 (c : Dev nD) (t : Fin cfg0.N) : (dats m 0 c).after 9 t
    = out9 (iblk m c 0 t) (iblk m c 1 t) (iblk m c 2 t) (iblk m c 3 t) (iblk m c 4 t) (iblk m c 5 t) (iblk m c 6 t) (iblk m c 7 t) := by
  dsimp only [dats]

/-- An input's current buffer holds its block at every point, fetched there or not: unfetched, the block index has
    not moved since the point that fetched it. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
      (fun t => by rw [after7]; unfold Dat.blockOf iblk; rw [A_eq]; try rfl) t d).trans
    (by unfold Dat.fetched Dat.blockOf iblk; rw [A_eq]; try rfl)

end Cert.KernelIdeal.Hand

end
-- ==== Proof.KIBody.lean ====
/-
  The kernel body at a grid point: from the eight input buffers at their blocks and the two output buffers at
  anything, it runs without fault to the inputs as they were and the outputs at `out8` / `out9` of the inputs.
  The body loads every input whole, loads the pair buffer before overwriting it whole (the loaded value is never
  used), stores the pair tile, computes, loads the context buffer likewise and stores the context tile.
-/
import proofs.«157908_j61744449847590_1_alg».proof.Proof.KIData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs. -/
theorem sound_kernel (c : Dev nD) (E : Set ℕ) (i : grid0.Coords)
    (arg2 : Memref sig .tc .vmem S1x48x256 .f32) (harg2 : arg2.IsWhole) (arg3 : Memref sig .tc .vmem S1x96x256 .f32) (harg3 : arg3.IsWhole)
    (arg4 : Memref sig .tc .vmem S1x48x96x11 .f32) (harg4 : arg4.IsWhole) (arg5 : Memref sig .tc .vmem S256x256 .bf16) (harg5 : arg5.IsWhole)
    (arg6 : Memref sig .tc .vmem S11x256 .bf16) (harg6 : arg6.IsWhole) (arg7 : Memref sig .tc .vmem S1x256 .f32) (harg7 : arg7.IsWhole)
    (arg8 : Memref sig .tc .vmem S1x256 .f32) (harg8 : arg8.IsWhole) (arg9 : Memref sig .tc .vmem S1x1 .f32) (harg9 : arg9.IsWhole)
    (arg10 : Memref sig .tc .vmem S1x48x96x256 .f32) (harg10 : arg10.IsWhole) (arg11 : Memref sig .tc .vmem S1x48x256 .f32) (harg11 : arg11.IsWhole)
    (x0 : Vec F S1x48x256 .f32) (x1 : Vec F S1x96x256 .f32) (x2 : Vec F S1x48x96x11 .f32) (x3 : Vec F S256x256 .bf16)
    (x4 : Vec F S11x256 .bf16) (x5 x6 : Vec F S1x256 .f32) (x7 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (out8 x0 x1)
            ∗ owns (c : Thread nD τ) arg11 fullShare (out9 x0 x1 x2 x3 x4 x5 x6 x7)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover8 _)
  iexists _; isplitr
  swap; · iexact H9
  ipureintro
  exact View.read_writes_eq_canon _ _ _ (cover9 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The run of the kernel's program and its frame, at any float instance.

  The launch deals the core the nine distinct buffers behind the ten windows' arrays, each whole at its contents
  when the region is entered. The argument read through windows 0 and 1 is split into its two halves, one per
  window; every other array goes to its one window whole. With the body obligation and the program's shape up to
  the region, the frame run for windows sharing an array gives: every weakly fair execution terminates, the
  arrays end at what the write-backs compute, every other unscoped buffer as the region found it. The seven
  arguments are inputs of windows or bypass the region, and no host operation writes them: they end as launched.
-/
import proofs.«157908_j61744449847590_1_alg».proof.Proof.KIBody
import proofs.«157908_j61744449847590_1_alg».proof.Proof.LibSharedFrame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5_0) ↦{fullShare} W main_v5_0)
          ∗ (((c : Thread nD τ).loc main_v5_1) ↦{fullShare} W main_v5_1)) := by
  unfold Pipeline.arrBufs
  exact bigSep_eq_bigSepL_of_eq [main_arg0, main_arg1, main_v0, main_v1, main_v2, main_v3, main_v4, main_v5_0, main_v5_1] (by decide) (by decide) _

/-- The proof data's arrays as points-tos of the buffers behind them, each at its window's share. -/
theorem arrays_eq (c : Dev nD) (G : (w : Fin cfg0.W) → Buf (Elt F) ((cfg0.win w).arr.view.loc (c : Thread nD τ))) :
    ((dats m 0 c).arrays G : sProp 𝕄)
      = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

theorem hsplit (c : Dev nD) :
    (Pipeline.arrBufs spec0 c (V m c) : sProp 𝕄) ⊢ (dats m 0 c).arrays ((dats m 0 c).arrAt · 0) := by
  rw [arrBufs_eq, arrays_eq, bigSep_W0]
  iintro ⟨H0, H1, Hv0, Hv1, Hv2, Hv3, Hv4, H50, H51⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [Hv0]; · iexact Hv0
  isplitl [Hv1]; · iexact Hv1
  isplitl [Hv2]; · iexact Hv2
  isplitl [Hv3]; · iexact Hv3
  isplitl [Hv4]; · iexact Hv4
  isplitl [H50]; · iexact H50
  iexact H51

-- the launch theorem's implicit arguments are found by unifying its conclusion with this one, which takes unfolding
-- plain definitions in a metavariable's type
set_option backward.isDefEq.respectTransparency.types false in
/-- From any memory with zero counters every weakly fair execution of the program terminates, and every final
    state has each window's array at what the write-backs compute and every other unscoped buffer as the region
    found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- In a final state of the run the seven arguments are as launched. Arguments 0 and 1 are inputs of windows (an
    input's array is never written back); arguments 2 to 6 bypass the region; no host operation writes any. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c),
    ((h c).2 main_arg5 (Pipeline.mem_restRefs_of main_arg5 rfl (by decide))).trans (V_main_arg5 m c),
    ((h c).2 main_arg6 (Pipeline.mem_restRefs_of main_arg6 rfl (by decide))).trans (V_main_arg6 m c)⟩

/-- The frame: the program runs to the end without fault and its seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.KernelIdeal.Hand

end
-- ==== Proof.Spec.lean ====
/-
  The two results as functions of the arguments, entry by entry, on the extended reals.

  For a batch `b`, rows `i`, `j` and a channel `h`:
    pair[b,i,j,h]   = x[b,i,h] + x[b,j,h]
    hidden[b,i,j,k] = max( Σ_h pair[b,i,j,h]·Wa[h,k] + Σ_c f[b,i,j,c]·Wb[c,k] + bb[k] , 0 )
    score[b,i,j]    = logistic( Σ_k hidden[b,i,j,k]·ws[k] + bs )
    context[b,i,h]  = Σ_j score[b,i,j]·x[b,j,h]
  Everything below is stated for ONE pair (b, i) of batch and query row, over the rows the entry depends on:
  `xi` is row `i` of the batch, `xrow j` its row `j`, `frow j` the pair features of (i, j). Both programs are
  read against these: the kernel a tile of 48 query rows at a time, the reference on whole arrays.
  The zero of the rectifier stays the f32 pattern both programs print; it is never evaluated.
-/
import Idealize.ShloMosaic.PureOps.Ideal

noncomputable section

namespace Cert.Spec

open Idealize.ShloMosaic

/-- The rectified hidden unit `k` of a pair of rows `xi`, `xj` with pair features `f`. -/
def hid (xi xj : Fin 256 → EReal) (f : Fin 11 → EReal) (Wa : Fin 256 → Fin 256 → EReal) (Wb : Fin 11 → Fin 256 → EReal)
    (bb : Fin 256 → EReal) (k : Fin 256) : EReal :=
  max (((∑ h : Fin 256, (xi h + xj h) * Wa h k) + (∑ c : Fin 11, f c * Wb c k)) + bb k) (Ideal.ofBits .f32 0x00000000#32)

/-- The attention score of the pair: the logistic of the hidden units' weighted sum plus the bias. -/
def score (xi xj : Fin 256 → EReal) (f : Fin 11 → EReal) (Wa : Fin 256 → Fin 256 → EReal) (Wb : Fin 11 → Fin 256 → EReal)
    (bb ws : Fin 256 → EReal) (bs : EReal) : EReal :=
  Ideal.logistic ((∑ k : Fin 256, hid xi xj f Wa Wb bb k * ws k) + bs)

/-- Channel `h` of the context of query row `xi`: the rows of the batch weighted by their scores against it. -/
def ctx (xi : Fin 256 → EReal) (xrow : Fin 96 → Fin 256 → EReal) (frow : Fin 96 → Fin 11 → EReal)
    (Wa : Fin 256 → Fin 256 → EReal) (Wb : Fin 11 → Fin 256 → EReal) (bb ws : Fin 256 → EReal) (bs : EReal) (h : Fin 256) : EReal :=
  ∑ j : Fin 96, score xi (xrow j) (frow j) Wa Wb bb ws bs * xrow j h

end Cert.Spec

end
-- ==== Proof.KIPoint.lean ====
/-
  The grid point as (batch, row tile), and the two results as functions of the launch memory.

  Point `t` of the 16 × 2 grid is batch `t / 2` and row tile `t % 2`; row `r` of the tile is row `48·(t % 2) + r` of
  the batch. `G8` and `G9` are what the two output arrays hold after the run, entry by entry, over the seven
  argument arrays as launched: the pair sums, and the context rows of the specification.
-/
import proofs.«157908_j61744449847590_1_alg».proof.Proof.KIData
import proofs.«157908_j61744449847590_1_alg».proof.Proof.Spec
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

theorem N_lt (t : Fin cfg0.N) : t.val < 32 := by
  have h := t.isLt
  have e : cfg0.N = 32 := N_0
  omega

/-- The batch of point `t`. -/
def bOf (t : Fin cfg0.N) : Fin 16 := ⟨t.val / 2, by have := N_lt t; omega⟩
/-- The row tile of point `t`. -/
def tileOf (t : Fin cfg0.N) : Fin 2 := ⟨t.val % 2, by omega⟩
/-- Row `r` of point `t`'s tile, as a row of the batch. -/
def rowOf (t : Fin cfg0.N) (r : Fin 48) : Fin 96 := ⟨48 * (t.val % 2) + r.val, by have := r.isLt; omega⟩
/-- The point of batch `b` and tile `it`. -/
def ptOf (b : Fin 16) (it : Fin 2) : Fin cfg0.N := ⟨2 * b.val + it.val, by
  have e : cfg0.N = 32 := N_0
  have := b.isLt; have := it.isLt; omega⟩

variable (m : (ℓ : Loc nD τ sig) → Buf (Elt Ideal) ℓ)

/-- The seven arguments as launched on core `c`, as functions of an index. -/
abbrev a0 (c : Dev nD) : S16x96x256.Idx → EReal := m ((c : Thread nD τ).loc main_arg0)
abbrev a1 (c : Dev nD) : S16x96x96x11.Idx → EReal := m ((c : Thread nD τ).loc main_arg1)
abbrev a2 (c : Dev nD) : S256x256.Idx → EReal := m ((c : Thread nD τ).loc main_arg2)
abbrev a3 (c : Dev nD) : S11x256.Idx → EReal := m ((c : Thread nD τ).loc main_arg3)
abbrev a4 (c : Dev nD) : S256.Idx → EReal := m ((c : Thread nD τ).loc main_arg4)
abbrev a5 (c : Dev nD) : S256x1.Idx → EReal := m ((c : Thread nD τ).loc main_arg5)
abbrev a6 (c : Dev nD) : S1.Idx → EReal := m ((c : Thread nD τ).loc main_arg6)

/-- Entry (b, i, j, h) of the pair tensor. -/
def pairAt (c : Dev nD) (b : Fin 16) (i j : Fin 96) (h : Fin 256) : EReal :=
  a0 m c (ix3 b i h) + a0 m c (ix3 b j h)

/-- Entry (b, i, h) of the context. -/
def ctxAt (c : Dev nD) (b : Fin 16) (i : Fin 96) (h : Fin 256) : EReal :=
  Cert.Spec.ctx (fun h' => a0 m c (ix3 b i h')) (fun j h' => a0 m c (ix3 b j h')) (fun j c' => a1 m c (ix4 b i j c'))
    (fun a k => a2 m c (ix2 a k)) (fun c' k => a3 m c (ix2 c' k)) (fun k => a4 m c (ix1 k)) (fun k => a5 m c (ix2 k 0))
    (a6 m c (ix1 0)) h

/-- The pair array after the run. -/
def G8 (c : Dev nD) : S16x96x96x256.Idx → EReal := fun y =>
  pairAt m c ⟨(y 0).val, (y 0).isLt⟩ ⟨(y 1).val, (y 1).isLt⟩ ⟨(y 2).val, (y 2).isLt⟩ ⟨(y 3).val, (y 3).isLt⟩

/-- The context array after the run. -/
def G9 (c : Dev nD) : S16x96x256.Idx → EReal := fun y =>
  ctxAt m c ⟨(y 0).val, (y 0).isLt⟩ ⟨(y 1).val, (y 1).isLt⟩ ⟨(y 2).val, (y 2).isLt⟩

end Cert.KernelIdeal.HandValue

end
-- ==== Proof.KIBlocks.lean ====
/-
  Each input window's block at a grid point, read at an index, is the launched argument at the matching index.

  Point `t` of the 16 × 2 grid is batch `t / 2` and row tile `t % 2`. A block's element sits in its array, on each
  axis, at the block index times the block's size plus its own coordinate. Windows 0 and 2 move with both grid
  coordinates (block index (t / 2, t % 2, 0, …)), window 1 with the batch only (block index (t / 2, 0, 0)); the other
  five windows' blocks are their whole arrays (block index 0 on every axis). Windows 0, 1, 2 read arguments that no
  host operation writes. Windows 3 and 4 read the two weight matrices after a conversion that is the identity on
  extended reals; windows 5, 6, 7 read a reshape of an argument, which keeps the row-major position.
-/
import proofs.«157908_j61744449847590_1_alg».proof.Proof.KIPoint
import Idealize.ShloMosaic.Lib.Pipeline.Value
import Idealize.ShloMosaic.Lib.ValueLayout
set_option maxRecDepth 16384
noncomputable section
namespace Cert.KernelIdeal.HandValue
open Cert.KernelIdeal Cert.KernelIdeal.Gen Cert.KernelIdeal.Hand Idealize.ShloMosaic Idealize.ShloMosaic.TcCoe Idealize.ShloMosaic.ValueIdx Idealize.SL.Sem
variable (m : (ℓ : Loc nD τ sig) → Buf (Elt Ideal) ℓ)

/-! ## The index maps, decided once over the grid -/

/-- Window 0's block index at point `t` is (t / 2, t % 2, 0). -/
theorem idx0 : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)

/-- Window 1's block index at point `t` is (t / 2, 0, 0). -/
theorem idx1 : ∀ t : Fin cfg0.N, win0_1.index t (0 : Fin 3) = t.val / 2 ∧ win0_1.index t (1 : Fin 3) = 0
    ∧ win0_1.index t (2 : Fin 3) = 0 :=
  (by decide +kernel : ∀ t : Fin grid0.N, _)

/-- Window 2's block index at point `t` is (t / 2, t % 2, 0, 0). -/
theorem idx2 : ∀ t : Fin cfg0.N, win0_2.index t (0 : Fin 4) = t.val / 2 ∧ win0_2.index t (1 : Fin 4) = t.val % 2
    ∧ win0_2.index t (2 : Fin 4) = 0 ∧ win0_2.index t (3 : Fin 4) = 0 :=
  (by decide +kernel : ∀ t : Fin grid0.N, _)

/-- Windows 3 to 7 stay at block (0, 0). -/
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-! ## The five arrays the host operations wrote, as the region finds them -/

/-- The first weight matrix: the conversion of argument 2. -/
theorem V_main_v0 (c : Dev nD) : @Eq (S256x256.Idx → EReal) (V m c main_v0)
    (truncf (F := Ideal) .bf16 (V m c main_arg2 : FVec Ideal S256x256 .f32) bitsLt_bf16_f32 : FVec Ideal S256x256 .bf16) := by
  dsimp only [V, hostOps0]; after_results

/-- The second weight matrix: the conversion of argument 3. -/
theorem V_main_v1 (c : Dev nD) : @Eq (S11x256.Idx → EReal) (V m c main_v1)
    (truncf (F := Ideal) .bf16 (V m c main_arg3 : FVec Ideal S11x256 .f32) bitsLt_bf16_f32 : FVec Ideal S11x256 .bf16) := by
  dsimp only [V, hostOps0]; after_results

/-- The bias row: argument 4 reshaped [256] → [1, 256]. -/
theorem V_main_v2 (c : Dev nD) : @Eq (S1x256.Idx → EReal) (V m c main_v2)
    (shapeCast S1x256 (V m c main_arg4 : S256.Idx → EReal) shapeCasts_S256_S1x256) := by
  dsimp only [V, hostOps0]; after_results; rfl

/-- The score weights as a row: argument 5 reshaped [256, 1] → [1, 256]. -/
theorem V_main_v3 (c : Dev nD) : @Eq (S1x256.Idx → EReal) (V m c main_v3)
    (shapeCast S1x256 (V m c main_arg5 : S256x1.Idx → EReal) shapeCasts_S256x1_S1x256) := by
  dsimp only [V, hostOps0]; after_results; rfl

/-- The score bias: argument 6 reshaped [1] → [1, 1]. -/
theorem V_main_v4 (c : Dev nD) : @Eq (S1x1.Idx → EReal) (V m c main_v4)
    (shapeCast S1x1 (V m c main_arg6 : S1.Idx → EReal) shapeCasts_S1_S1x1) := by
  dsimp only [V, hostOps0]; after_results; rfl

/-! ## The blocks at an index -/

/-- Window 0: row `r` of the tile is row 48·(t % 2) + r of batch t / 2. -/
theorem iblk0_apply (c : Dev nD) (t : Fin cfg0.N) (r : Fin 48) (h : Fin 256) :
    (iblk m c 0 t : Vec Ideal S1x48x256 .f32) (ix3 0 r h) = a0 m c (ix3 (bOf t) (rowOf t r) h) := by
  obtain ⟨e0, e1, e2⟩ := idx0 t
  show V m c main_arg0 (((cfg0.win 0).blk t).view.emb (ix3 0 r h)) = m ((c : Thread nD τ).loc main_arg0) (ix3 (bOf t) (rowOf t r) h)
  rw [V_main_arg0]
  refine congrArg _ (funext fun a => Fin.ext ?_)
  match a with
  | ⟨0, _⟩ => show win0_0.index t (0 : Fin 3) * 1 + 1 * (0 : Fin 1).val = t.val / 2; rw [e0]; simp
  | ⟨1, _⟩ => show win0_0.index t (1 : Fin 3) * 48 + 1 * r.val = 48 * (t.val % 2) + r.val; omega
  | ⟨2, _⟩ => show win0_0.index t (2 : Fin 3) * 256 + 1 * h.val = h.val; omega

/-- Window 1: all 96 rows of batch t / 2. -/
theorem iblk1_apply (c : Dev nD) (t : Fin cfg0.N) (j : Fin 96) (h : Fin 256) :
    (iblk m c 1 t : Vec Ideal S1x96x256 .f32) (ix3 0 j h) = a0 m c (ix3 (bOf t) j h) := by
  obtain ⟨e0, e1, e2⟩ := idx1 t
  show V m c main_arg0 (((cfg0.win 1).blk t).view.emb (ix3 0 j h)) = m ((c : Thread nD τ).loc main_arg0) (ix3 (bOf t) j h)
  rw [V_main_arg0]
  refine congrArg _ (funext fun a => Fin.ext ?_)
  match a with
  | ⟨0, _⟩ => show win0_1.index t (0 : Fin 3) * 1 + 1 * (0 : Fin 1).val = t.val / 2; rw [e0]; simp
  | ⟨1, _⟩ => show win0_1.index t (1 : Fin 3) * 96 + 1 * j.val = j.val; omega
  | ⟨2, _⟩ => show win0_1.index t (2 : Fin 3) * 256 + 1 * h.val = h.val; omega

/-- Window 2: the pair features of the tile's rows. -/
theorem iblk2_apply (c : Dev nD) (t : Fin cfg0.N) (r : Fin 48) (j : Fin 96) (k : Fin 11) :
    (iblk m c 2 t : Vec Ideal S1x48x96x11 .f32) (ix4 0 r j k) = a1 m c (ix4 (bOf t) (rowOf t r) j k) := by
  obtain ⟨e0, e1, e2, e3⟩ := idx2 t
  show V m c main_arg1 (((cfg0.win 2).blk t).view.emb (ix4 0 r j k)) = m ((c : Thread nD τ).loc main_arg1) (ix4 (bOf t) (rowOf t r) j k)
  rw [V_main_arg1]
  refine congrArg _ (funext fun a => Fin.ext ?_)
  match a with
  | ⟨0, _⟩ => show win0_2.index t (0 : Fin 4) * 1 + 1 * (0 : Fin 1).val = t.val / 2; rw [e0]; simp
  | ⟨1, _⟩ => show win0_2.index t (1 : Fin 4) * 48 + 1 * r.val = 48 * (t.val % 2) + r.val; omega
  | ⟨2, _⟩ => show win0_2.index t (2 : Fin 4) * 96 + 1 * j.val = j.val; omega
  | ⟨3, _⟩ => show win0_2.index t (3 : Fin 4) * 11 + 1 * k.val = k.val; omega

/-- Window 3: the first weight matrix, whole. -/
theorem iblk3_apply (c : Dev nD) (t : Fin cfg0.N) (a k : Fin 256) :
    (iblk m c 3 t : Vec Ideal S256x256 .bf16) (ix2 a k) = a2 m c (ix2 a k) := by
  obtain ⟨e0, e1⟩ := idx3 t
  show V m c main_v0 (((cfg0.win 3).blk t).view.emb (ix2 a k)) = m ((c : Thread nD τ).loc main_arg2) (ix2 a k)
  have hi : (((cfg0.win 3).blk t).view.emb (ix2 a k) : S256x256.Idx) = ix2 a k := funext fun d => Fin.ext (by
    match d with
    | ⟨0, _⟩ => show win0_3.index t (0 : Fin 2) * 256 + 1 * a.val = a.val; omega
    | ⟨1, _⟩ => show win0_3.index t (1 : Fin 2) * 256 + 1 * k.val = k.val; omega)
  rw [hi]
  refine (congrFun (V_main_v0 m c) (ix2 a k)).trans ?_
  rw [truncf_apply, V_main_arg2]

/-- Window 4: the second weight matrix, whole. -/
theorem iblk4_apply (c : Dev nD) (t : Fin cfg0.N) (a : Fin 11) (k : Fin 256) :
    (iblk m c 4 t : Vec Ideal S11x256 .bf16) (ix2 a k) = a3 m c (ix2 a k) := by
  obtain ⟨e0, e1⟩ := idx4 t
  show V m c main_v1 (((cfg0.win 4).blk t).view.emb (ix2 a k)) = m ((c : Thread nD τ).loc main_arg3) (ix2 a k)
  have hi : (((cfg0.win 4).blk t).view.emb (ix2 a k) : S11x256.Idx) = ix2 a k := funext fun d => Fin.ext (by
    match d with
    | ⟨0, _⟩ => show win0_4.index t (0 : Fin 2) * 11 + 1 * a.val = a.val; omega
    | ⟨1, _⟩ => show win0_4.index t (1 : Fin 2) * 256 + 1 * k.val = k.val; omega)
  rw [hi]
  refine (congrFun (V_main_v1 m c) (ix2 a k)).trans ?_
  rw [truncf_apply, V_main_arg3]

/-- Window 5: the bias row; entry (0, k) of the reshape is entry k of the argument. -/
theorem iblk5_apply (c : Dev nD) (t : Fin cfg0.N) (k : Fin 256) :
    (iblk m c 5 t : Vec Ideal S1x256 .f32) (ix2 0 k) = a4 m c (ix1 k) := by
  obtain ⟨e0, e1⟩ := idx5 t
  show V m c main_v2 (((cfg0.win 5).blk t).view.emb (ix2 0 k)) = m ((c : Thread nD τ).loc main_arg4) (ix1 k)
  have hi : (((cfg0.win 5).blk t).view.emb (ix2 0 k) : S1x256.Idx) = ix2 0 k := funext fun d => Fin.ext (by
    match d with
    | ⟨0, _⟩ => show win0_5.index t (0 : Fin 2) * 1 + 1 * (0 : Fin 1).val = (0 : Fin 1).val; rw [e0]; simp
    | ⟨1, _⟩ => show win0_5.index t (1 : Fin 2) * 256 + 1 * k.val = k.val; omega)
  rw [hi]
  refine (congrFun (V_main_v2 m c) (ix2 0 k)).trans ?_
  rw [shapeCast_apply (V m c main_arg4 : S256.Idx → EReal) shapeCasts_S256_S1x256 (ix2 0 k) (ix1 k) (by
    show (S256.rowMajor (ix1 k)).val = (S1x256.rowMajor (ix2 0 k)).val
    rw [Shape.rowMajor_val_one, Shape.rowMajor_val_two]
    show k.val = (0 : Fin 1).val * 256 + k.val
    simp), V_main_arg4]

/-- Window 6: the score weights; entry (0, k) of the reshape is entry (k, 0) of the argument. -/
theorem iblk6_apply (c : Dev nD) (t : Fin cfg0.N) (k : Fin 256) :
    (iblk m c 6 t : Vec Ideal S1x256 .f32) (ix2 0 k) = a5 m c (ix2 k 0) := by
  obtain ⟨e0, e1⟩ := idx6 t
  show V m c main_v3 (((cfg0.win 6).blk t).view.emb (ix2 0 k)) = m ((c : Thread nD τ).loc main_arg5) (ix2 k 0)
  have hi : (((cfg0.win 6).blk t).view.emb (ix2 0 k) : S1x256.Idx) = ix2 0 k := funext fun d => Fin.ext (by
    match d with
    | ⟨0, _⟩ => show win0_6.index t (0 : Fin 2) * 1 + 1 * (0 : Fin 1).val = (0 : Fin 1).val; rw [e0]; simp
    | ⟨1, _⟩ => show win0_6.index t (1 : Fin 2) * 256 + 1 * k.val = k.val; omega)
  rw [hi]
  refine (congrFun (V_main_v3 m c) (ix2 0 k)).trans ?_
  rw [shapeCast_apply (V m c main_arg5 : S256x1.Idx → EReal) shapeCasts_S256x1_S1x256 (ix2 0 k) (ix2 k 0) (by
    show (S256x1.rowMajor (ix2 k 0)).val = (S1x256.rowMajor (ix2 0 k)).val
    rw [Shape.rowMajor_val_two, Shape.rowMajor_val_two]
    show k.val * 1 + (0 : Fin 1).val = (0 : Fin 1).val * 256 + k.val
    simp), V_main_arg5]

/-- Window 7: the score bias. -/
theorem iblk7_apply (c : Dev nD) (t : Fin cfg0.N) :
    (iblk m c 7 t : Vec Ideal S1x1 .f32) (ix2 0 0) = a6 m c (ix1 0) := by
  obtain ⟨e0, e1⟩ := idx7 t
  show V m c main_v4 (((cfg0.win 7).blk t).view.emb (ix2 0 0)) = m ((c : Thread nD τ).loc main_arg6) (ix1 0)
  have hi : (((cfg0.win 7).blk t).view.emb (ix2 0 0) : S1x1.Idx) = ix2 0 0 := funext fun d => Fin.ext (by
    match d with
    | ⟨0, _⟩ => show win0_7.index t (0 : Fin 2) * 1 + 1 * (0 : Fin 1).val = (0 : Fin 1).val; rw [e0]; simp
    | ⟨1, _⟩ => show win0_7.index t (1 : Fin 2) * 1 + 1 * (0 : Fin 1).val = (0 : Fin 1).val; rw [e1]; simp)
  rw [hi]
  refine (congrFun (V_main_v4 m c) (ix2 0 0)).trans ?_
  rw [shapeCast_apply (V m c main_arg6 : S1.Idx → EReal) shapeCasts_S1_S1x1 (ix2 0 0) (ix1 0) (by
    show (S1.rowMajor (ix1 0)).val = (S1x1.rowMajor (ix2 0 0)).val
    rw [Shape.rowMajor_val_one, Shape.rowMajor_val_two]
    show (0 : Fin 1).val = (0 : Fin 1).val * 1 + (0 : Fin 1).val
    simp), V_main_arg6]

end Cert.KernelIdeal.HandValue
end
-- ==== Proof.PayHid.lean ====
import proofs.«157908_j61744449847590_1_alg».proof.Proof.Gen.KernelIdeal.Skeleton
import proofs.«157908_j61744449847590_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
  The first part of the kernel body read entry by entry, on the extended reals.

  For a tile's query row `r`, a row `j` of the batch and channels `h`, `k`:
    pair[r,j,h]   = xi[r,h] + xf[j,h]                      (each summand broadcast along the other row axis)
    hidden[r,j,k] = max( Σ_h pair[r,j,h]·Wa[h,k] + Σ_c f[r,j,c]·Wb[c,k] + bb[k] , 0 )
  The two products are taken on the row-major flattening (r, j) ↦ 96·r + j of the pair axes and cast back; the
  narrowing to bf16 is the identity on extended reals; each product starts from a zero accumulator, so it is the
  plain sum over the contracted axis.
-/
noncomputable section
namespace Cert.KernelIdeal.PayVal
open Cert.KernelIdeal Cert.KernelIdeal.Gen Idealize.ShloMosaic Idealize.ShloMosaic.ValueIdx

/-! ## Layout operations at explicit coordinates -/

section Layout
variable {α : Type}

/-- A [48,1,256] array broadcast along its unit axis reads, at (r, j, h), the operand at (r, 0, h). -/
theorem bcast_48x1x256_apply (v : S48x1x256.Idx → α) (hb : S48x1x256.Broadcasts S48x96x256)
    (r : Fin 48) (j : Fin 96) (h : Fin 256) :
    broadcastTo S48x96x256 v hb (ix3 r j h) = v (ix3 r (0 : Fin 1) h) := by
  refine broadcastTo_apply v hb (ix3 r j h) (ix3 r (0 : Fin 1) h) fun a => ?_
  match a with
  | ⟨0, _⟩ =>
    show r.val = if (48 : Nat) = 1 then 0 else r.val
    rw [if_neg (by decide)]
  | ⟨1, _⟩ =>
    show 0 = if (1 : Nat) = 1 then 0 else j.val
    rw [if_pos rfl]
  | ⟨2, _⟩ =>
    show h.val = if (256 : Nat) = 1 then 0 else h.val
    rw [if_neg (by decide)]

/-- A [1,96,256] array broadcast along its leading unit axis reads, at (r, j, h), the operand at (0, j, h). -/
theorem bcast_1x96x256_apply (v : S1x96x256.Idx → α) (hb : S1x96x256.Broadcasts S48x96x256)
    (r : Fin 48) (j : Fin 96) (h : Fin 256) :
    broadcastTo S48x96x256 v hb (ix3 r j h) = v (ix3 (0 : Fin 1) j h) := by
  refine broadcastTo_apply v hb (ix3 r j h) (ix3 (0 : Fin 1) j h) fun a => ?_
  match a with
  | ⟨0, _⟩ =>
    show 0 = if (1 : Nat) = 1 then 0 else r.val
    rw [if_pos rfl]
  | ⟨1, _⟩ =>
    show j.val = if (96 : Nat) = 1 then 0 else j.val
    rw [if_neg (by decide)]
  | ⟨2, _⟩ =>
    show h.val = if (256 : Nat) = 1 then 0 else h.val
    rw [if_neg (by decide)]

/-- A [1,1,256] array broadcast along both unit axes reads, at (r, j, k), the operand at (0, 0, k). -/
theorem bcast_1x1x256_apply (v : S1x1x256.Idx → α) (hb : S1x1x256.Broadcasts S48x96x256)
    (r : Fin 48) (j : Fin 96) (k : Fin 256) :
    broadcastTo S48x96x256 v hb (ix3 r j k) = v (ix3 (0 : Fin 1) (0 : Fin 1) k) := by
  refine broadcastTo_apply v hb (ix3 r j k) (ix3 (0 : Fin 1) (0 : Fin 1) k) fun a => ?_
  match a with
  | ⟨0, _⟩ =>
    show 0 = if (1 : Nat) = 1 then 0 else r.val
    rw [if_pos rfl]
  | ⟨1, _⟩ =>
    show 0 = if (1 : Nat) = 1 then 0 else j.val
    rw [if_pos rfl]
  | ⟨2, _⟩ =>
    show k.val = if (256 : Nat) = 1 then 0 else k.val
    rw [if_neg (by decide)]

/-- A [48,256] array cast to [48,1,256] reads, at (r, u, h), the operand at (r, h). -/
theorem cast_48x256_48x1x256_apply (v : S48x256.Idx → α) (hc : S48x256.ShapeCasts S48x1x256)
    (r : Fin 48) (u : Fin 1) (h : Fin 256) :
    shapeCast S48x1x256 v hc (ix3 r u h) = v (ix2 r h) :=
  shapeCast_apply v hc _ _ (by
    have hu : u.val = 0 := by omega
    rw [Shape.rowMajor_val_two, Shape.rowMajor_val_three]
    show r.val * 256 + h.val = (r.val * 1 + u.val) * 256 + h.val
    rw [hu]; omega)

/-- A [1,256] array cast to [1,1,256] reads, at (u, w, k), the operand at (0, k). -/
theorem cast_1x256_1x1x256_apply (v : S1x256.Idx → α) (hc : S1x256.ShapeCasts S1x1x256)
    (u w : Fin 1) (k : Fin 256) :
    shapeCast S1x1x256 v hc (ix3 u w k) = v (ix2 (0 : Fin 1) k) :=
  shapeCast_apply v hc _ _ (by
    have hu : u.val = 0 := by omega
    have hw : w.val = 0 := by omega
    rw [Shape.rowMajor_val_two, Shape.rowMajor_val_three]
    show 0 * 256 + k.val = (u.val * 1 + w.val) * 256 + k.val
    rw [hu, hw])

/-- The row-major flattening [48,96,n] → [4608,n]: row 96·r + j of the result is row (r, j) of the operand. -/
theorem cast_flat256_apply (v : S48x96x256.Idx → α) (hc : S48x96x256.ShapeCasts S4608x256)
    (r : Fin 48) (j : Fin 96) (h : Fin 256) (hlt : 96 * r.val + j.val < 4608) :
    shapeCast S4608x256 v hc (ix2 (⟨96 * r.val + j.val, hlt⟩ : Fin 4608) h) = v (ix3 r j h) :=
  shapeCast_apply v hc _ _ (by
    rw [Shape.rowMajor_val_two, Shape.rowMajor_val_three]
    show (r.val * 96 + j.val) * 256 + h.val = (96 * r.val + j.val) * 256 + h.val
    rw [Nat.mul_comm r.val 96])

theorem cast_flat11_apply (v : S48x96x11.Idx → α) (hc : S48x96x11.ShapeCasts S4608x11)
    (r : Fin 48) (j : Fin 96) (c : Fin 11) (hlt : 96 * r.val + j.val < 4608) :
    shapeCast S4608x11 v hc (ix2 (⟨96 * r.val + j.val, hlt⟩ : Fin 4608) c) = v (ix3 r j c) :=
  shapeCast_apply v hc _ _ (by
    rw [Shape.rowMajor_val_two, Shape.rowMajor_val_three]
    show (r.val * 96 + j.val) * 11 + c.val = (96 * r.val + j.val) * 11 + c.val
    rw [Nat.mul_comm r.val 96])

/-- The inverse cast [4608,256] → [48,96,256]: entry (r, j, k) of the result is entry (96·r + j, k) of the operand. -/
theorem cast_unflat256_apply (v : S4608x256.Idx → α) (hc : S4608x256.ShapeCasts S48x96x256)
    (r : Fin 48) (j : Fin 96) (k : Fin 256) (hlt : 96 * r.val + j.val < 4608) :
    shapeCast S48x96x256 v hc (ix3 r j k) = v (ix2 (⟨96 * r.val + j.val, hlt⟩ : Fin 4608) k) :=
  shapeCast_apply v hc _ _ (by
    rw [Shape.rowMajor_val_two, Shape.rowMajor_val_three]
    show (96 * r.val + j.val) * 256 + k.val = (r.val * 96 + j.val) * 256 + k.val
    rw [Nat.mul_comm r.val 96])

theorem flat_lt (r : Fin 48) (j : Fin 96) : 96 * r.val + j.val < 4608 := by omega

end Layout

/-! ## The pair tensor -/

theorem pay2_apply (x1 : Vec Ideal S1x96x256 .f32) (j : Fin 96) (h : Fin 256) :
    k0_pay2 (F := Ideal) x1 (ix2 j h) = x1 (ix3 0 j h) := by
  unfold k0_pay2
  exact shapeCast_1ab_ab_apply x1 _ j h

theorem pay3_apply (x0 : Vec Ideal S1x48x256 .f32) (x1 : Vec Ideal S1x96x256 .f32) (r : Fin 48) (j : Fin 96) (h : Fin 256) :
    k0_pay3 (F := Ideal) x0 x1 (ix3 r j h) = x0 (ix3 0 r h) + x1 (ix3 0 j h) := by
  unfold k0_pay3
  refine (addf_apply _ _ _).trans ?_
  rw [bcast_48x1x256_apply, bcast_1x96x256_apply, cast_48x256_48x1x256_apply, shapeCast_1ab_ab_apply,
    shapeCast_ab_1ab_apply, pay2_apply]

theorem pay4_apply (x0 : Vec Ideal S1x48x256 .f32) (x1 : Vec Ideal S1x96x256 .f32) (r : Fin 48) (j : Fin 96) (h : Fin 256) :
    k0_pay4 (F := Ideal) x0 x1 (ix4 0 r j h) = x0 (ix3 0 r h) + x1 (ix3 0 j h) := by
  unfold k0_pay4
  exact (shapeCast_abc_1abc_apply _ _ 0 r j h).trans (pay3_apply x0 x1 r j h)

/-! ## The two matrix products read at an index -/

theorem lhs_hidA_0 (i : S4608x256.Idx) (q : dot_S4608x256_S256x256_S4608x256_1_0_0_1_n_n.contr.Idx) :
    (dot_S4608x256_S256x256_S4608x256_1_0_0_1_n_n.lhsIdx i q 0).val = (i 0).val := by
  unfold DotDims.lhsIdx
  rw [dif_neg (show ¬(0 : Fin S4608x256.rank) ∈ dot_S4608x256_S256x256_S4608x256_1_0_0_1_n_n.lhsBatch by decide), dif_pos (show (0 : Fin S4608x256.rank) ∈ dot_S4608x256_S256x256_S4608x256_1_0_0_1_n_n.lhsNonContracting by decide)]
  rfl
theorem lhs_hidA_1 (i : S4608x256.Idx) (q : dot_S4608x256_S256x256_S4608x256_1_0_0_1_n_n.contr.Idx) :
    (dot_S4608x256_S256x256_S4608x256_1_0_0_1_n_n.lhsIdx i q 1).val = (q ⟨0, by decide⟩).val :=
  dot_S4608x256_S256x256_S4608x256_1_0_0_1_n_n.lhsIdx_val_of_single rfl i q
theorem rhs_hidA_0 (i : S4608x256.Idx) (q : dot_S4608x256_S256x256_S4608x256_1_0_0_1_n_n.contr.Idx) :
    (dot_S4608x256_S256x256_S4608x256_1_0_0_1_n_n.rhsIdx i q 0).val = (q ⟨0, by decide⟩).val :=
  dot_S4608x256_S256x256_S4608x256_1_0_0_1_n_n.rhsIdx_val_of_single rfl i q
theorem rhs_hidA_1 (i : S4608x256.Idx) (q : dot_S4608x256_S256x256_S4608x256_1_0_0_1_n_n.contr.Idx) :
    (dot_S4608x256_S256x256_S4608x256_1_0_0_1_n_n.rhsIdx i q 1).val = (i 1).val := by
  unfold DotDims.rhsIdx
  rw [dif_neg (show ¬(1 : Fin S256x256.rank) ∈ dot_S4608x256_S256x256_S4608x256_1_0_0_1_n_n.rhsBatch by decide), dif_pos (show (1 : Fin S256x256.rank) ∈ dot_S4608x256_S256x256_S4608x256_1_0_0_1_n_n.rhsNonContracting by decide)]
  rfl

/-- The [4608,256] × [256,256] product into the zero accumulator, at (p, k): the sum over the contracted channel. -/
theorem matmul_hidA_apply (a : FVec Ideal S4608x256 .bf16) (b : FVec Ideal S256x256 .bf16) (p : Fin 4608) (k : Fin 256) :
    matmul dot_S4608x256_S256x256_S4608x256_1_0_0_1_n_n none a b (constant (F := Ideal) S4608x256 .f32 0x00000000#32) (ix2 p k)
      = ∑ h : Fin 256, a (ix2 p h) * b (ix2 h k) := by
  refine (Ideal.matmul_constant_zero_apply dot_S4608x256_S256x256_S4608x256_1_0_0_1_n_n none a b (ix2 p k)).trans ?_
  rw [← Equiv.sum_comp (contrEquiv1 dot_S4608x256_S256x256_S4608x256_1_0_0_1_n_n 256 rfl rfl).symm]
  refine Finset.sum_congr rfl fun h _ => ?_
  have hk := contrEquiv1_symm_val dot_S4608x256_S256x256_S4608x256_1_0_0_1_n_n 256 rfl rfl h
  have el : dot_S4608x256_S256x256_S4608x256_1_0_0_1_n_n.lhsIdx (ix2 p k) ((contrEquiv1 dot_S4608x256_S256x256_S4608x256_1_0_0_1_n_n 256 rfl rfl).symm h) = ix2 p h := funext fun a => Fin.ext (by
    match a with
    | ⟨0, _⟩ => exact lhs_hidA_0 _ _
    | ⟨1, _⟩ => exact (lhs_hidA_1 _ _).trans hk)
  have er : dot_S4608x256_S256x256_S4608x256_1_0_0_1_n_n.rhsIdx (ix2 p k) ((contrEquiv1 dot_S4608x256_S256x256_S4608x256_1_0_0_1_n_n 256 rfl rfl).symm h) = ix2 h k := funext fun a => Fin.ext (by
    match a with
    | ⟨0, _⟩ => exact (rhs_hidA_0 _ _).trans hk
    | ⟨1, _⟩ => exact rhs_hidA_1 _ _)
  rw [el, er]

theorem lhs_hidB_0 (i : S4608x256.Idx) (q : dot_S4608x11_S11x256_S4608x256_1_0_0_1_n_n.contr.Idx) :
    (dot_S4608x11_S11x256_S4608x256_1_0_0_1_n_n.lhsIdx i q 0).val = (i 0).val := by
  unfold DotDims.lhsIdx
  rw [dif_neg (show ¬(0 : Fin S4608x11.rank) ∈ dot_S4608x11_S11x256_S4608x256_1_0_0_1_n_n.lhsBatch by decide), dif_pos (show (0 : Fin S4608x11.rank) ∈ dot_S4608x11_S11x256_S4608x256_1_0_0_1_n_n.lhsNonContracting by decide)]
  rfl
theorem lhs_hidB_1 (i : S4608x256.Idx) (q : dot_S4608x11_S11x256_S4608x256_1_0_0_1_n_n.contr.Idx) :
    (dot_S4608x11_S11x256_S4608x256_1_0_0_1_n_n.lhsIdx i q 1).val = (q ⟨0, by decide⟩).val :=
  dot_S4608x11_S11x256_S4608x256_1_0_0_1_n_n.lhsIdx_val_of_single rfl i q
theorem rhs_hidB_0 (i : S4608x256.Idx) (q : dot_S4608x11_S11x256_S4608x256_1_0_0_1_n_n.contr.Idx) :
    (dot_S4608x11_S11x256_S4608x256_1_0_0_1_n_n.rhsIdx i q 0).val = (q ⟨0, by decide⟩).val :=
  dot_S4608x11_S11x256_S4608x256_1_0_0_1_n_n.rhsIdx_val_of_single rfl i q
theorem rhs_hidB_1 (i : S4608x256.Idx) (q : dot_S4608x11_S11x256_S4608x256_1_0_0_1_n_n.contr.Idx) :
    (dot_S4608x11_S11x256_S4608x256_1_0_0_1_n_n.rhsIdx i q 1).val = (i 1).val := by
  unfold DotDims.rhsIdx
  rw [dif_neg (show ¬(1 : Fin S11x256.rank) ∈ dot_S4608x11_S11x256_S4608x256_1_0_0_1_n_n.rhsBatch by decide), dif_pos (show (1 : Fin S11x256.rank) ∈ dot_S4608x11_S11x256_S4608x256_1_0_0_1_n_n.rhsNonContracting by decide)]
  rfl

/-- The [4608,11] × [11,256] product into the zero accumulator, at (p, k): the sum over the contracted feature. -/
theorem matmul_hidB_apply (a : FVec Ideal S4608x11 .bf16) (b : FVec Ideal S11x256 .bf16) (p : Fin 4608) (k : Fin 256) :
    matmul dot_S4608x11_S11x256_S4608x256_1_0_0_1_n_n none a b (constant (F := Ideal) S4608x256 .f32 0x00000000#32) (ix2 p k)
      = ∑ c : Fin 11, a (ix2 p c) * b (ix2 c k) := by
  refine (Ideal.matmul_constant_zero_apply dot_S4608x11_S11x256_S4608x256_1_0_0_1_n_n none a b (ix2 p k)).trans ?_
  rw [← Equiv.sum_comp (contrEquiv1 dot_S4608x11_S11x256_S4608x256_1_0_0_1_n_n 11 rfl rfl).symm]
  refine Finset.sum_congr rfl fun c _ => ?_
  have hk := contrEquiv1_symm_val dot_S4608x11_S11x256_S4608x256_1_0_0_1_n_n 11 rfl rfl c
  have el : dot_S4608x11_S11x256_S4608x256_1_0_0_1_n_n.lhsIdx (ix2 p k) ((contrEquiv1 dot_S4608x11_S11x256_S4608x256_1_0_0_1_n_n 11 rfl rfl).symm c) = ix2 p c := funext fun a => Fin.ext (by
    match a with
    | ⟨0, _⟩ => exact lhs_hidB_0 _ _
    | ⟨1, _⟩ => exact (lhs_hidB_1 _ _).trans hk)
  have er : dot_S4608x11_S11x256_S4608x256_1_0_0_1_n_n.rhsIdx (ix2 p k) ((contrEquiv1 dot_S4608x11_S11x256_S4608x256_1_0_0_1_n_n 11 rfl rfl).symm c) = ix2 c k := funext fun a => Fin.ext (by
    match a with
    | ⟨0, _⟩ => exact (rhs_hidB_0 _ _).trans hk
    | ⟨1, _⟩ => exact rhs_hidB_1 _ _)
  rw [el, er]

/-! ## The rectified hidden layer -/

theorem pay5_apply (x0 : Vec Ideal S1x48x256 .f32) (x1 : Vec Ideal S1x96x256 .f32) (x2 : Vec Ideal S1x48x96x11 .f32) (x3 : Vec Ideal S256x256 .bf16) (x4 : Vec Ideal S11x256 .bf16) (x5 : Vec Ideal S1x256 .f32) (r : Fin 48) (j : Fin 96) (k : Fin 256) :
    k0_pay5 (F := Ideal) x0 x1 x2 x3 x4 x5 (ix3 r j k)
      = Cert.Spec.hid (fun h' => x0 (ix3 0 r h')) (fun h' => x1 (ix3 0 j h')) (fun c => x2 (ix4 0 r j c))
          (fun a k' => x3 (ix2 a k')) (fun c k' => x4 (ix2 c k')) (fun k' => x5 (ix2 0 k')) k := by
  unfold k0_pay5
  refine (maximumf_apply _ _ _).trans ?_
  rw [addf_apply, addf_apply, broadcast_apply, bcast_1x1x256_apply, cast_1x256_1x1x256_apply,
    cast_unflat256_apply _ _ r j k (flat_lt r j), cast_unflat256_apply _ _ r j k (flat_lt r j),
    matmul_hidA_apply, matmul_hidB_apply]
  simp only [shapeCast_self, cast_flat256_apply, cast_flat11_apply, truncf_apply, pay3_apply,
    shapeCast_1abc_abc_apply]
  rfl

end Cert.KernelIdeal.PayVal
end
-- ==== Proof.PayCtx.lean ====
import proofs.«157908_j61744449847590_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.PayVal2
open Cert.KernelIdeal Cert.KernelIdeal.Gen Idealize.ShloMosaic Idealize.ShloMosaic.ValueIdx

/-! ## The score weights spread over every (row, neighbour) pair -/

/-- The [1, 256] weights, given a unit axis and spread over [48, 96, 256], read at (r, j, k) the weight k. -/
theorem weights_apply (w : FVec Ideal S1x256 .f32) (h₀ : S1x256.ShapeCasts S1x256) (h₁ : S1x256.ShapeCasts S1x1x256)
    (h₂ : S1x1x256.Broadcasts S48x96x256) (r : Fin 48) (j : Fin 96) (k : Fin 256) :
    broadcastTo S48x96x256 (shapeCast S1x1x256 (shapeCast S1x256 w h₀) h₁) h₂ (ix3 r j k) = w (ix2 0 k) := by
  rw [shapeCast_self]
  refine (broadcastTo_apply _ h₂ (ix3 r j k) (ix3 (0 : Fin 1) (0 : Fin 1) k) fun a => ?_).trans ?_
  · match a with
    | ⟨0, _⟩ => rfl
    | ⟨1, _⟩ => rfl
    | ⟨2, _⟩ => rfl
  · exact shapeCast_ab_1ab_apply w h₁ 0 0 k

/-- The [1, 1] bias spread over [48, 96] reads its one entry everywhere. -/
theorem bias_apply (b : FVec Ideal S1x1 .f32) (h₀ : S1x1.ShapeCasts S1x1) (h₁ : S1x1.Broadcasts S48x96)
    (r : Fin 48) (j : Fin 96) :
    broadcastTo S48x96 (shapeCast S1x1 b h₀) h₁ (ix2 r j) = b (ix2 0 0) := by
  rw [shapeCast_self]
  refine broadcastTo_apply _ h₁ (ix2 r j) (ix2 (0 : Fin 1) (0 : Fin 1)) fun a => ?_
  match a with
  | ⟨0, _⟩ => rfl
  | ⟨1, _⟩ => rfl

/-! ## The sum over the feature axis -/

/-- A sum of a [48, 96, 256] array over its last axis, read at (r, j): the plain sum over k of the entries
(r, j, k). -/
theorem lastAxisSum_apply (src : FVec Ideal S48x96x256 .f32) (h : S48x96x256.Reduces [2] S48x96)
    (hφ : FKind.Formats .f32) (hacc : (0x00000000#32 : BitVec 32) = FKind.add.neutral .f32 hφ) (r : Fin 48) (j : Fin 96) :
    multiReduction (F := Ideal) .add [2] S48x96 src 0x00000000#32 h hφ hacc (ix2 r j) = ∑ k : Fin 256, src (ix3 r j k) :=
  (Ideal.multiReduction_add_single src 0x00000000#32 h hφ hacc (ix2 r j)).trans
    (Finset.sum_congr rfl fun k _ => congrArg src (funext fun a => Fin.ext (by
      match a with
      | ⟨0, _⟩ => rfl
      | ⟨1, _⟩ => rfl
      | ⟨2, _⟩ => rfl)))

/-! ## The product of the scores with the batch's rows -/

theorem lhs_ctx_0 (i : S48x256.Idx) (q : dot_S48x96_S96x256_S48x256_1_0_0_1_n_n.contr.Idx) :
    (dot_S48x96_S96x256_S48x256_1_0_0_1_n_n.lhsIdx i q 0).val = (i 0).val := by
  unfold DotDims.lhsIdx
  rw [dif_neg (show ¬(0 : Fin S48x96.rank) ∈ dot_S48x96_S96x256_S48x256_1_0_0_1_n_n.lhsBatch by decide),
    dif_pos (show (0 : Fin S48x96.rank) ∈ dot_S48x96_S96x256_S48x256_1_0_0_1_n_n.lhsNonContracting by decide)]
  rfl
theorem lhs_ctx_1 (i : S48x256.Idx) (q : dot_S48x96_S96x256_S48x256_1_0_0_1_n_n.contr.Idx) :
    (dot_S48x96_S96x256_S48x256_1_0_0_1_n_n.lhsIdx i q 1).val = (q ⟨0, by decide⟩).val :=
  dot_S48x96_S96x256_S48x256_1_0_0_1_n_n.lhsIdx_val_of_single rfl i q
theorem rhs_ctx_0 (i : S48x256.Idx) (q : dot_S48x96_S96x256_S48x256_1_0_0_1_n_n.contr.Idx) :
    (dot_S48x96_S96x256_S48x256_1_0_0_1_n_n.rhsIdx i q 0).val = (q ⟨0, by decide⟩).val :=
  dot_S48x96_S96x256_S48x256_1_0_0_1_n_n.rhsIdx_val_of_single rfl i q
theorem rhs_ctx_1 (i : S48x256.Idx) (q : dot_S48x96_S96x256_S48x256_1_0_0_1_n_n.contr.Idx) :
    (dot_S48x96_S96x256_S48x256_1_0_0_1_n_n.rhsIdx i q 1).val = (i 1).val := by
  unfold DotDims.rhsIdx
  rw [dif_neg (show ¬(1 : Fin S96x256.rank) ∈ dot_S48x96_S96x256_S48x256_1_0_0_1_n_n.rhsBatch by decide),
    dif_pos (show (1 : Fin S96x256.rank) ∈ dot_S48x96_S96x256_S48x256_1_0_0_1_n_n.rhsNonContracting by decide)]
  rfl

/-- The [48, 96] scores times the [96, 256] rows, accumulated from zero, read at (r, c): the sum over the
neighbour j of score (r, j) times row entry (j, c). -/
theorem ctx_apply {φ₁ φ₂ : FTy} (A : FVec Ideal S48x96 φ₁) (B : FVec Ideal S96x256 φ₂) (r : Fin 48) (c : Fin 256) :
    matmul dot_S48x96_S96x256_S48x256_1_0_0_1_n_n none A B (constant (F := Ideal) S48x256 .f32 0x00000000#32) (ix2 r c)
      = ∑ j : Fin 96, A (ix2 r j) * B (ix2 j c) := by
  simp only [matmul]
  rw [Ideal.matmul_constant_zero_apply, ← Equiv.sum_comp (contrEquiv1 dot_S48x96_S96x256_S48x256_1_0_0_1_n_n 96 rfl rfl).symm]
  refine Finset.sum_congr rfl fun k _ => ?_
  have hk := contrEquiv1_symm_val dot_S48x96_S96x256_S48x256_1_0_0_1_n_n 96 rfl rfl k
  have el : dot_S48x96_S96x256_S48x256_1_0_0_1_n_n.lhsIdx (ix2 r c) ((contrEquiv1 dot_S48x96_S96x256_S48x256_1_0_0_1_n_n 96 rfl rfl).symm k) = ix2 r k := funext fun a => Fin.ext (by
    match a with
    | ⟨0, _⟩ => exact lhs_ctx_0 _ _
    | ⟨1, _⟩ => exact (lhs_ctx_1 _ _).trans hk)
  have er : dot_S48x96_S96x256_S48x256_1_0_0_1_n_n.rhsIdx (ix2 r c) ((contrEquiv1 dot_S48x96_S96x256_S48x256_1_0_0_1_n_n 96 rfl rfl).symm k) = ix2 k c := funext fun a => Fin.ext (by
    match a with
    | ⟨0, _⟩ => exact (rhs_ctx_0 _ _).trans hk
    | ⟨1, _⟩ => exact rhs_ctx_1 _ _)
  rw [el, er]

/-! ## The stored value at an index -/

theorem pay1_apply (v3 : FVec Ideal S96x256 .f32) (v33 : FVec Ideal S48x96x256 .f32) (x6 : Vec Ideal S1x256 .f32) (x7 : Vec Ideal S1x1 .f32) (r : Fin 48) (h : Fin 256) :
    k0_pay1 (F := Ideal) v3 v33 x6 x7 (ix3 0 r h)
      = ∑ j : Fin 96, Ideal.logistic ((∑ k : Fin 256, v33 (ix3 r j k) * x6 (ix2 0 k)) + x7 (ix2 0 0)) * v3 (ix2 j h) := by
  unfold k0_pay1
  refine (shapeCast_ab_1ab_apply _ _ 0 r h).trans ?_
  refine (ctx_apply _ _ r h).trans ?_
  refine Finset.sum_congr rfl fun j _ => ?_
  refine congrArg₂ (· * ·) ?_ rfl
  refine congrArg Ideal.logistic ?_
  refine congrArg₂ (· + ·) ?_ (bias_apply x7 _ _ r j)
  refine (lastAxisSum_apply _ _ _ _ r j).trans ?_
  refine Finset.sum_congr rfl fun k _ => ?_
  exact congrArg (v33 (ix3 r j k) * ·) (weights_apply x6 _ _ _ r j k)

end Cert.KernelIdeal.PayVal2
end
-- ==== Proof.KIFinal.lean ====
/-
  From the blocks the grid points write back to the two whole output arrays.

  Point t = (b, it) of the 16 × 2 grid writes block (b, it, 0, 0) of the pair array, the entries (b, 48·it + r, j, h),
  and block (b, it, 0) of the context array, the entries (b, 48·it + r, h). What it writes is the restriction of
  `G8` / `G9` to that block: entry by entry the tile's payload over the point's input blocks is the pair sum, resp.
  the specification's context, of the rows of the arguments those blocks are. The 32 blocks cover each array: entry
  (b, i, …) lies in the block of point (b, i / 48). Hence the two arrays end holding `G8` and `G9`.
-/
import proofs.«157908_j61744449847590_1_alg».proof.Proof.KIPoint
import proofs.«157908_j61744449847590_1_alg».proof.Proof.KIBlocks
import proofs.«157908_j61744449847590_1_alg».proof.Proof.PayHid
import proofs.«157908_j61744449847590_1_alg».proof.Proof.PayCtx
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The block index of the pair window at a point: (batch, tile, 0, 0). -/
theorem pairIndex : ∀ t : Fin cfg0.N, win0_8.index t (0 : Fin 4) = t.val / 2 ∧ win0_8.index t (1 : Fin 4) = t.val % 2
    ∧ win0_8.index t (2 : Fin 4) = 0 ∧ win0_8.index t (3 : Fin 4) = 0 :=
  (by decide +kernel : ∀ t : Fin grid0.N, _)

/-- The block index of the context window at a point: (batch, tile, 0). -/
theorem ctxIndex : ∀ t : Fin cfg0.N, win0_9.index t (0 : Fin 3) = t.val / 2 ∧ win0_9.index t (1 : Fin 3) = t.val % 2
    ∧ win0_9.index t (2 : Fin 3) = 0 :=
  (by decide +kernel : ∀ t : Fin grid0.N, _)

/-- The pair array at an index whose coordinates are known. -/
theorem G8_at (c : Dev nD) (e : S16x96x96x256.Idx) (b : Fin 16) (i j : Fin 96) (h : Fin 256)
    (h0 : (e 0).val = b.val) (h1 : (e 1).val = i.val) (h2 : (e 2).val = j.val) (h3 : (e 3).val = h.val) :
    G8 m c e = pairAt m c b i j h := by
  show pairAt m c ⟨(e 0).val, (e 0).isLt⟩ ⟨(e 1).val, (e 1).isLt⟩ ⟨(e 2).val, (e 2).isLt⟩ ⟨(e 3).val, (e 3).isLt⟩ = _
  have q0 : (⟨(e 0).val, (e 0).isLt⟩ : Fin 16) = b := Fin.ext h0
  have q1 : (⟨(e 1).val, (e 1).isLt⟩ : Fin 96) = i := Fin.ext h1
  have q2 : (⟨(e 2).val, (e 2).isLt⟩ : Fin 96) = j := Fin.ext h2
  have q3 : (⟨(e 3).val, (e 3).isLt⟩ : Fin 256) = h := Fin.ext h3
  rw [q0, q1, q2, q3]

/-- The context array at an index whose coordinates are known. -/
theorem G9_at (c : Dev nD) (e : S16x96x256.Idx) (b : Fin 16) (i : Fin 96) (h : Fin 256)
    (h0 : (e 0).val = b.val) (h1 : (e 1).val = i.val) (h2 : (e 2).val = h.val) :
    G9 m c e = ctxAt m c b i h := by
  show ctxAt m c ⟨(e 0).val, (e 0).isLt⟩ ⟨(e 1).val, (e 1).isLt⟩ ⟨(e 2).val, (e 2).isLt⟩ = _
  have q0 : (⟨(e 0).val, (e 0).isLt⟩ : Fin 16) = b := Fin.ext h0
  have q1 : (⟨(e 1).val, (e 1).isLt⟩ : Fin 96) = i := Fin.ext h1
  have q2 : (⟨(e 2).val, (e 2).isLt⟩ : Fin 256) = h := Fin.ext h2
  rw [q0, q1, q2]

/-- One entry of the pair tile, over any blocks that are the stated rows of one array. -/
theorem pair_entry (x0 : Vec Ideal S1x48x256 .f32) (x1 : Vec Ideal S1x96x256 .f32) (A : S16x96x256.Idx → EReal)
    (b : Fin 16) (row : Fin 48 → Fin 96)
    (e0 : ∀ r h, x0 (ix3 0 r h) = A (ix3 b (row r) h)) (e1 : ∀ j h, x1 (ix3 0 j h) = A (ix3 b j h))
    (r : Fin 48) (j : Fin 96) (h : Fin 256) :
    k0_pay4 (F := Ideal) x0 x1 (ix4 0 r j h) = A (ix3 b (row r) h) + A (ix3 b j h) := by
  rw [PayVal.pay4_apply, e0, e1]

theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after8]
  unfold out8
  rw [View.canon_unit_zero zero4]
  simp only [View.ld_unit_zero (S := S1x48x256) zero3, View.ld_unit_zero (S := S1x96x256) zero3]
  funext y
  show k0_pay4 (F := Ideal) (iblk m c 0 t) (iblk m c 1 t) y = G8 m c (((cfg0.win 8).blk t).view.emb y)
  obtain ⟨q, r, j, h, rfl⟩ : ∃ (q : Fin 1) (r : Fin 48) (j : Fin 96) (h : Fin 256), y = ix4 q r j h :=
    ⟨y 0, y 1, y 2, y 3, eq_ix4 y⟩
  obtain rfl : q = 0 := Subsingleton.elim _ _
  obtain ⟨i0, i1, i2, i3⟩ := pairIndex t
  rw [pair_entry (iblk m c 0 t) (iblk m c 1 t) (a0 m c) (bOf t) (rowOf t) (iblk0_apply m c t) (iblk1_apply m c t) r j h]
  refine (G8_at m c _ (bOf t) (rowOf t r) j h ?_ ?_ ?_ ?_).symm
  · show win0_8.index t (0 : Fin 4) * 1 + 1 * (0 : Fin 1).val = t.val / 2
    rw [i0]; simp
  · show win0_8.index t (1 : Fin 4) * 48 + 1 * r.val = 48 * (t.val % 2) + r.val
    rw [i1]; omega
  · show win0_8.index t (2 : Fin 4) * 96 + 1 * j.val = j.val
    rw [i2]; omega
  · show win0_8.index t (3 : Fin 4) * 256 + 1 * h.val = h.val
    rw [i3]; omega

/-- One entry of the context tile, over any blocks that are the stated rows of the argument arrays. -/
theorem ctx_entry (x0 : Vec Ideal S1x48x256 .f32) (x1 : Vec Ideal S1x96x256 .f32) (x2 : Vec Ideal S1x48x96x11 .f32)
    (x3 : Vec Ideal S256x256 .bf16) (x4 : Vec Ideal S11x256 .bf16) (x5 x6 : Vec Ideal S1x256 .f32) (x7 : Vec Ideal S1x1 .f32)
    (A0 : S16x96x256.Idx → EReal) (A1 : S16x96x96x11.Idx → EReal) (A2 : S256x256.Idx → EReal) (A3 : S11x256.Idx → EReal)
    (A4 : S256.Idx → EReal) (A5 : S256x1.Idx → EReal) (A6 : S1.Idx → EReal)
    (b : Fin 16) (row : Fin 48 → Fin 96)
    (e0 : ∀ r h, x0 (ix3 0 r h) = A0 (ix3 b (row r) h)) (e1 : ∀ j h, x1 (ix3 0 j h) = A0 (ix3 b j h))
    (e2 : ∀ r j k, x2 (ix4 0 r j k) = A1 (ix4 b (row r) j k)) (e3 : ∀ a k, x3 (ix2 a k) = A2 (ix2 a k))
    (e4 : ∀ a k, x4 (ix2 a k) = A3 (ix2 a k)) (e5 : ∀ k, x5 (ix2 0 k) = A4 (ix1 k))
    (e6 : ∀ k, x6 (ix2 0 k) = A5 (ix2 k 0)) (e7 : x7 (ix2 0 0) = A6 (ix1 0))
    (r : Fin 48) (h : Fin 256) :
    k0_pay1 (F := Ideal) (k0_pay2 x1) (k0_pay5 x0 x1 x2 x3 x4 x5) x6 x7 (ix3 0 r h)
      = Cert.Spec.ctx (fun h' => A0 (ix3 b (row r) h')) (fun j h' => A0 (ix3 b j h')) (fun j c' => A1 (ix4 b (row r) j c'))
          (fun a k => A2 (ix2 a k)) (fun c' k => A3 (ix2 c' k)) (fun k => A4 (ix1 k)) (fun k => A5 (ix2 k 0)) (A6 (ix1 0)) h := by
  rw [PayVal2.pay1_apply]
  unfold Cert.Spec.ctx Cert.Spec.score
  refine Finset.sum_congr rfl fun j _ => ?_
  rw [PayVal.pay2_apply, e1, e7]
  congr 3
  refine Finset.sum_congr rfl fun k _ => ?_
  rw [PayVal.pay5_apply, e6]
  simp only [e0, e1, e2, e3, e4, e5]

theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after9]
  unfold out9
  rw [View.canon_unit_zero zero3]
  simp only [View.ld_unit_zero (S := S1x48x256) zero3, View.ld_unit_zero (S := S1x96x256) zero3,
    View.ld_unit_zero (S := S1x48x96x11) zero4, View.ld_unit_zero (S := S256x256) zero2,
    View.ld_unit_zero (S := S11x256) zero2, View.ld_unit_zero (S := S1x256) zero2, View.ld_unit_zero (S := S1x1) zero2]
  funext y
  show k0_pay1 (F := Ideal) (k0_pay2 (iblk m c 1 t)) (k0_pay5 (iblk m c 0 t) (iblk m c 1 t) (iblk m c 2 t) (iblk m c 3 t)
      (iblk m c 4 t) (iblk m c 5 t)) (iblk m c 6 t) (iblk m c 7 t) y = G9 m c (((cfg0.win 9).blk t).view.emb y)
  obtain ⟨q, r, h, rfl⟩ : ∃ (q : Fin 1) (r : Fin 48) (h : Fin 256), y = ix3 q r h := ⟨y 0, y 1, y 2, eq_ix3 y⟩
  obtain rfl : q = 0 := Subsingleton.elim _ _
  obtain ⟨i0, i1, i2⟩ := ctxIndex t
  rw [ctx_entry (iblk m c 0 t) (iblk m c 1 t) (iblk m c 2 t) (iblk m c 3 t) (iblk m c 4 t) (iblk m c 5 t) (iblk m c 6 t)
    (iblk m c 7 t) (a0 m c) (a1 m c) (a2 m c) (a3 m c) (a4 m c) (a5 m c) (a6 m c) (bOf t) (rowOf t)
    (iblk0_apply m c t) (iblk1_apply m c t) (iblk2_apply m c t) (iblk3_apply m c t) (iblk4_apply m c t)
    (iblk5_apply m c t) (iblk6_apply m c t) (iblk7_apply m c t) r h]
  refine (G9_at m c _ (bOf t) (rowOf t r) h ?_ ?_ ?_).symm
  · show win0_9.index t (0 : Fin 3) * 1 + 1 * (0 : Fin 1).val = t.val / 2
    rw [i0]; simp
  · show win0_9.index t (1 : Fin 3) * 48 + 1 * r.val = 48 * (t.val % 2) + r.val
    rw [i1]; omega
  · show win0_9.index t (2 : Fin 3) * 256 + 1 * h.val = h.val
    rw [i2]; omega

/-- An index of the pair array is in a point's block iff each coordinate is in the block's range on its axis. -/
theorem mem_pairBlock (t : Fin cfg0.N) (i : S16x96x96x256.Idx) :
    i ∈ ((cfg0.win 8).blk t).view.set ↔ ∀ a : Fin 4, win0_8.index t a * S1x48x96x256.size a ≤ (i a).val
      ∧ (i a).val < win0_8.index t a * S1x48x96x256.size a + S1x48x96x256.size a := by
  show i ∈ ((View.whole main_v5_0).slice (win0_8.rect t)).set ↔ _
  rw [View.set_slice_whole, Rect.mem_set_unit]
  exact Iff.rfl

/-- An index of the context array is in a point's block iff each coordinate is in the block's range on its axis. -/
theorem mem_ctxBlock (t : Fin cfg0.N) (i : S16x96x256.Idx) :
    i ∈ ((cfg0.win 9).blk t).view.set ↔ ∀ a : Fin 3, win0_9.index t a * S1x48x256.size a ≤ (i a).val
      ∧ (i a).val < win0_9.index t a * S1x48x256.size a + S1x48x256.size a := by
  show i ∈ ((View.whole main_v5_1).slice (win0_9.rect t)).set ↔ _
  rw [View.set_slice_whole, Rect.mem_set_unit]
  exact Iff.rfl

/-- Every entry of the pair array is in the block of the point of its batch and of its query row's tile. -/
theorem pair_cover (i : S16x96x96x256.Idx) :
    ∃ t : Fin cfg0.N, (cfg0.win 8).flush t = true ∧ i ∈ ((cfg0.win 8).blk t).view.set := by
  have h0 : (i 0).val < 16 := (i 0).isLt
  have h1 : (i 1).val < 96 := (i 1).isLt
  have h2 : (i 2).val < 96 := (i 2).isLt
  have h3 : (i 3).val < 256 := (i 3).isLt
  refine ⟨ptOf ⟨(i 0).val, h0⟩ ⟨(i 1).val / 48, by omega⟩, flush0_8 _, ?_⟩
  rw [mem_pairBlock]
  obtain ⟨i0, i1, i2, i3⟩ := pairIndex (ptOf ⟨(i 0).val, h0⟩ ⟨(i 1).val / 48, by omega⟩)
  have hv : (ptOf ⟨(i 0).val, h0⟩ ⟨(i 1).val / 48, by omega⟩).val = 2 * (i 0).val + (i 1).val / 48 := rfl
  intro a
  match a with
  | ⟨0, _⟩ =>
    show win0_8.index _ (0 : Fin 4) * 1 ≤ (i 0).val ∧ (i 0).val < win0_8.index _ (0 : Fin 4) * 1 + 1
    rw [i0, hv]; omega
  | ⟨1, _⟩ =>
    show win0_8.index _ (1 : Fin 4) * 48 ≤ (i 1).val ∧ (i 1).val < win0_8.index _ (1 : Fin 4) * 48 + 48
    rw [i1, hv]; omega
  | ⟨2, _⟩ =>
    show win0_8.index _ (2 : Fin 4) * 96 ≤ (i 2).val ∧ (i 2).val < win0_8.index _ (2 : Fin 4) * 96 + 96
    rw [i2]; omega
  | ⟨3, _⟩ =>
    show win0_8.index _ (3 : Fin 4) * 256 ≤ (i 3).val ∧ (i 3).val < win0_8.index _ (3 : Fin 4) * 256 + 256
    rw [i3]; omega

/-- Every entry of the context array is in the block of the point of its batch and of its row's tile. -/
theorem ctx_cover (i : S16x96x256.Idx) :
    ∃ t : Fin cfg0.N, (cfg0.win 9).flush t = true ∧ i ∈ ((cfg0.win 9).blk t).view.set := by
  have h0 : (i 0).val < 16 := (i 0).isLt
  have h1 : (i 1).val < 96 := (i 1).isLt
  have h2 : (i 2).val < 256 := (i 2).isLt
  refine ⟨ptOf ⟨(i 0).val, h0⟩ ⟨(i 1).val / 48, by omega⟩, flush0_9 _, ?_⟩
  rw [mem_ctxBlock]
  obtain ⟨i0, i1, i2⟩ := ctxIndex (ptOf ⟨(i 0).val, h0⟩ ⟨(i 1).val / 48, by omega⟩)
  have hv : (ptOf ⟨(i 0).val, h0⟩ ⟨(i 1).val / 48, by omega⟩).val = 2 * (i 0).val + (i 1).val / 48 := rfl
  intro a
  match a with
  | ⟨0, _⟩ =>
    show win0_9.index _ (0 : Fin 3) * 1 ≤ (i 0).val ∧ (i 0).val < win0_9.index _ (0 : Fin 3) * 1 + 1
    rw [i0, hv]; omega
  | ⟨1, _⟩ =>
    show win0_9.index _ (1 : Fin 3) * 48 ≤ (i 1).val ∧ (i 1).val < win0_9.index _ (1 : Fin 3) * 48 + 48
    rw [i1, hv]; omega
  | ⟨2, _⟩ =>
    show win0_9.index _ (2 : Fin 3) * 256 ≤ (i 2).val ∧ (i 2).val < win0_9.index _ (2 : Fin 3) * 256 + 256
    rw [i2]; omega

/-- The pair array after the run. -/
theorem final8 (c : Dev nD) : (dats m 0 c).arrAt 8 cfg0.N = G8 m c :=
  (dats m 0 c).arrAt_eq_of_cover 8 (G8 m c) (fun t _ => flushed8_eq m c t) pair_cover

/-- The context array after the run. -/
theorem final9 (c : Dev nD) : (dats m 0 c).arrAt 9 cfg0.N = G9 m c :=
  (dats m 0 c).arrAt_eq_of_cover 9 (G9 m c) (fun t _ => flushed9_eq m c t) ctx_cover

end Cert.KernelIdeal.HandValue

end
-- ==== Proof.RefVal.lean ====
/-
  The reference's two results, entry by entry, on the extended reals.

  The reference is read one operation at a time: the two broadcasts of the input and their sum (the pair tensor),
  the two contractions and the bias (the pre-activation), the maximum with the zero pattern (the hidden unit),
  the contraction with the score weights and the bias, the quotient 1 / (1 + exp (-z)) (the logistic), the sum
  over the unit axis, and the contraction of the scores with the rows of the batch (the context). Each stage is
  identified at coordinates (b, i, j, ·) with the corresponding function of the specification.
-/
import proofs.«157908_j61744449847590_1_alg».proof.Proof.Gen.ReferenceIdeal.Read
import proofs.«157908_j61744449847590_1_alg».proof.Proof.Spec

noncomputable section

namespace Cert.ReferenceIdeal.RefVal

open Cert.ReferenceIdeal Cert.ReferenceIdeal.Read Idealize.ShloMosaic Idealize.ShloMosaic.ValueIdx

/-- atom_pair: the reference adds row `j` (broadcast along the query axis) to row `i` (broadcast along the key
    axis); addition on the extended reals commutes. -/
theorem ref_pair (x0 : (⟨S16x96x256, .f32⟩ : BufTy).Contents (Elt Ideal)) (b : Fin 16) (i j : Fin 96) (h : Fin 256) :
    val_main_v4 (F := Ideal) x0 (ix4 b i j h) = x0 (ix3 b i h) + x0 (ix3 b j h) := by
  rw [val_main_v4_apply, val_main_v2_apply, val_main_v0_apply, val_main_v3_apply, val_main_v1_apply]
  have e0 : idx_main_v0 (idx_main_v2 (ix4 b i j h)) = ix3 b j h :=
    funext fun a => Fin.ext (by match a with | ⟨0, _⟩ => rfl | ⟨1, _⟩ => rfl | ⟨2, _⟩ => rfl)
  have e1 : idx_main_v1 (idx_main_v3 (ix4 b i j h)) = ix3 b i h :=
    funext fun a => Fin.ext (by match a with | ⟨0, _⟩ => rfl | ⟨1, _⟩ => rfl | ⟨2, _⟩ => rfl)
  rw [e0, e1]
  exact add_comm _ _

/-- The first contraction: the pair sum against column `k` of the atom weights. -/
theorem ref_v5 (x0 : (⟨S16x96x256, .f32⟩ : BufTy).Contents (Elt Ideal)) (x2 : (⟨S256x256, .f32⟩ : BufTy).Contents (Elt Ideal)) (b : Fin 16) (i j : Fin 96) (k : Fin 256) :
    val_main_v5 (F := Ideal) x0 x2 (ix4 b i j k)
      = ∑ h : Fin 256, (x0 (ix3 b i h) + x0 (ix3 b j h)) * x2 (ix2 h k) := by
  rw [val_main_v5_apply]
  refine Finset.sum_congr rfl fun h _ => ?_
  have el : lidx_main_v5 (ix4 b i j k) h = ix4 b i j h :=
    funext fun a => Fin.ext (by match a with | ⟨0, _⟩ => rfl | ⟨1, _⟩ => rfl | ⟨2, _⟩ => rfl | ⟨3, _⟩ => rfl)
  have er : ridx_main_v5 (ix4 b i j k) h = ix2 h k :=
    funext fun a => Fin.ext (by match a with | ⟨0, _⟩ => rfl | ⟨1, _⟩ => rfl)
  rw [el, er, ref_pair]

/-- The second contraction: the pair features against column `k` of the feature weights. -/
theorem ref_v6 (x1 : (⟨S16x96x96x11, .f32⟩ : BufTy).Contents (Elt Ideal)) (x3 : (⟨S11x256, .f32⟩ : BufTy).Contents (Elt Ideal)) (b : Fin 16) (i j : Fin 96) (k : Fin 256) :
    val_main_v6 (F := Ideal) x1 x3 (ix4 b i j k) = ∑ c : Fin 11, x1 (ix4 b i j c) * x3 (ix2 c k) := by
  rw [val_main_v6_apply]
  refine Finset.sum_congr rfl fun c _ => ?_
  have el : lidx_main_v6 (ix4 b i j k) c = ix4 b i j c :=
    funext fun a => Fin.ext (by match a with | ⟨0, _⟩ => rfl | ⟨1, _⟩ => rfl | ⟨2, _⟩ => rfl | ⟨3, _⟩ => rfl)
  have er : ridx_main_v6 (ix4 b i j k) c = ix2 c k :=
    funext fun a => Fin.ext (by match a with | ⟨0, _⟩ => rfl | ⟨1, _⟩ => rfl)
  rw [el, er]

/-- The bias, broadcast over batch and both row axes. -/
theorem ref_v9 (x4 : (⟨S256, .f32⟩ : BufTy).Contents (Elt Ideal)) (b : Fin 16) (i j : Fin 96) (k : Fin 256) :
    val_main_v9 (F := Ideal) x4 (ix4 b i j k) = x4 (ix1 k) := by
  rw [val_main_v9_apply, val_main_v8_apply]
  exact congrArg x4 (funext fun a => Fin.ext (by match a with | ⟨0, _⟩ => rfl))

/-- The rectified hidden unit is the specification's. -/
theorem ref_hid (x0 : (⟨S16x96x256, .f32⟩ : BufTy).Contents (Elt Ideal)) (x1 : (⟨S16x96x96x11, .f32⟩ : BufTy).Contents (Elt Ideal)) (x2 : (⟨S256x256, .f32⟩ : BufTy).Contents (Elt Ideal)) (x3 : (⟨S11x256, .f32⟩ : BufTy).Contents (Elt Ideal)) (x4 : (⟨S256, .f32⟩ : BufTy).Contents (Elt Ideal)) (b : Fin 16) (i j : Fin 96) (k : Fin 256) :
    val_main_v11 (F := Ideal) x0 x1 x2 x3 x4 (ix4 b i j k)
      = Cert.Spec.hid (fun h' => x0 (ix3 b i h')) (fun h' => x0 (ix3 b j h')) (fun c => x1 (ix4 b i j c))
          (fun a k' => x2 (ix2 a k')) (fun c k' => x3 (ix2 c k')) (fun k' => x4 (ix1 k')) k := by
  rw [val_main_v11_apply, val_main_v10_apply, val_main_v7_apply, ref_v5, ref_v6, ref_v9,
    val_main_call0_v0_apply, val_main_call0_cst_apply]
  rfl

/-- The score contraction: the hidden units against the one column of the score weights. -/
theorem ref_v12 (x0 : (⟨S16x96x256, .f32⟩ : BufTy).Contents (Elt Ideal)) (x1 : (⟨S16x96x96x11, .f32⟩ : BufTy).Contents (Elt Ideal)) (x2 : (⟨S256x256, .f32⟩ : BufTy).Contents (Elt Ideal)) (x3 : (⟨S11x256, .f32⟩ : BufTy).Contents (Elt Ideal)) (x4 : (⟨S256, .f32⟩ : BufTy).Contents (Elt Ideal)) (x5 : (⟨S256x1, .f32⟩ : BufTy).Contents (Elt Ideal)) (b : Fin 16) (i j : Fin 96) :
    val_main_v12 (F := Ideal) x0 x1 x2 x3 x4 x5 (ix4 b i j 0)
      = ∑ k : Fin 256, Cert.Spec.hid (fun h' => x0 (ix3 b i h')) (fun h' => x0 (ix3 b j h')) (fun c => x1 (ix4 b i j c))
          (fun a k' => x2 (ix2 a k')) (fun c k' => x3 (ix2 c k')) (fun k' => x4 (ix1 k')) k * x5 (ix2 k 0) := by
  rw [val_main_v12_apply]
  refine Finset.sum_congr rfl fun k _ => ?_
  have el : lidx_main_v12 (ix4 b i j (0 : Fin 1)) k = ix4 b i j k :=
    funext fun a => Fin.ext (by match a with | ⟨0, _⟩ => rfl | ⟨1, _⟩ => rfl | ⟨2, _⟩ => rfl | ⟨3, _⟩ => rfl)
  have er : ridx_main_v12 (ix4 b i j (0 : Fin 1)) k = ix2 k 0 :=
    funext fun a => Fin.ext (by match a with | ⟨0, _⟩ => rfl | ⟨1, _⟩ => rfl)
  rw [el, er, ref_hid]

/-- The score bias, broadcast over every axis. -/
theorem ref_v14 (x6 : (⟨S1, .f32⟩ : BufTy).Contents (Elt Ideal)) (b : Fin 16) (i j : Fin 96) :
    val_main_v14 (F := Ideal) x6 (ix4 b i j 0) = x6 (ix1 0) := by
  rw [val_main_v14_apply, val_main_v13_apply]
  exact congrArg x6 (funext fun a => Fin.ext (by match a with | ⟨0, _⟩ => rfl))

/-- The pattern of 1.0 denotes one. -/
theorem ofBits_one_f32 : Ideal.ofBits .f32 0x3F800000#32 = 1 := IdealRules.sign_bit.ideal_onePat .f32

/-- The reference's `1 / (1 + exp (-z))` is the logistic, so its quotient is the specification's score. -/
theorem ref_v21 (x0 : (⟨S16x96x256, .f32⟩ : BufTy).Contents (Elt Ideal)) (x1 : (⟨S16x96x96x11, .f32⟩ : BufTy).Contents (Elt Ideal)) (x2 : (⟨S256x256, .f32⟩ : BufTy).Contents (Elt Ideal)) (x3 : (⟨S11x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal)) (b : Fin 16) (i j : Fin 96) :
    val_main_v21 (F := Ideal) x0 x1 x2 x3 x4 x5 x6 (ix4 b i j 0)
      = Cert.Spec.score (fun h' => x0 (ix3 b i h')) (fun h' => x0 (ix3 b j h')) (fun c => x1 (ix4 b i j c))
          (fun a k' => x2 (ix2 a k')) (fun c k' => x3 (ix2 c k')) (fun k' => x4 (ix1 k')) (fun k' => x5 (ix2 k' 0)) (x6 (ix1 0)) := by
  rw [val_main_v21_apply, val_main_v20_apply, val_main_cst_0_apply, val_main_v19_apply, val_main_v18_apply,
    val_main_cst_apply, val_main_v17_apply, val_main_v16_apply, val_main_v15_apply, ref_v12, ref_v14]
  show Ideal.div (Ideal.ofBits .f32 0x3F800000#32) (Ideal.ofBits .f32 0x3F800000#32 + Ideal.exp (-(_ + _))) = _
  rw [ofBits_one_f32]
  rfl

/-- The sum over the unit axis, from the zero pattern, is its one term. -/
theorem ref_v22 (x0 : (⟨S16x96x256, .f32⟩ : BufTy).Contents (Elt Ideal)) (x1 : (⟨S16x96x96x11, .f32⟩ : BufTy).Contents (Elt Ideal)) (x2 : (⟨S256x256, .f32⟩ : BufTy).Contents (Elt Ideal)) (x3 : (⟨S11x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal)) (b : Fin 16) (i j : Fin 96) :
    val_main_v22 (F := Ideal) x0 x1 x2 x3 x4 x5 x6 (ix3 b i j)
      = Cert.Spec.score (fun h' => x0 (ix3 b i h')) (fun h' => x0 (ix3 b j h')) (fun c => x1 (ix4 b i j c))
          (fun a k' => x2 (ix2 a k')) (fun c k' => x3 (ix2 c k')) (fun k' => x4 (ix1 k')) (fun k' => x5 (ix2 k' 0)) (x6 (ix1 0)) := by
  rw [val_main_v22_apply, val_main_cst_1_apply, Fin.sum_univ_one]
  have e : idx_main_v22 (ix3 b i j) (0 : Fin 1) = ix4 b i j 0 :=
    funext fun a => Fin.ext (by match a with | ⟨0, _⟩ => rfl | ⟨1, _⟩ => rfl | ⟨2, _⟩ => rfl | ⟨3, _⟩ => rfl)
  rw [e, ref_v21]
  show Ideal.ofBits .f32 0x00000000#32 + _ = _
  rw [Ideal.ofBits_zero_f32, zero_add]

/-- context: the rows of the batch weighted by their scores against query row `i`. -/
theorem ref_ctx (x0 : (⟨S16x96x256, .f32⟩ : BufTy).Contents (Elt Ideal)) (x1 : (⟨S16x96x96x11, .f32⟩ : BufTy).Contents (Elt Ideal)) (x2 : (⟨S256x256, .f32⟩ : BufTy).Contents (Elt Ideal)) (x3 : (⟨S11x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal)) (b : Fin 16) (i : Fin 96) (h : Fin 256) :
    val_main_v23 (F := Ideal) x0 x1 x2 x3 x4 x5 x6 (ix3 b i h)
      = Cert.Spec.ctx (fun h' => x0 (ix3 b i h')) (fun j h' => x0 (ix3 b j h')) (fun j c => x1 (ix4 b i j c))
          (fun a k => x2 (ix2 a k)) (fun c k => x3 (ix2 c k)) (fun k => x4 (ix1 k)) (fun k => x5 (ix2 k 0)) (x6 (ix1 0)) h := by
  rw [val_main_v23_apply]
  unfold Cert.Spec.ctx
  refine Finset.sum_congr rfl fun j _ => ?_
  have el : lidx_main_v23 (ix3 b i h) j = ix3 b i j :=
    funext fun a => Fin.ext (by match a with | ⟨0, _⟩ => rfl | ⟨1, _⟩ => rfl | ⟨2, _⟩ => rfl)
  have er : ridx_main_v23 (ix3 b i h) j = ix3 b j h :=
    funext fun a => Fin.ext (by match a with | ⟨0, _⟩ => rfl | ⟨1, _⟩ => rfl | ⟨2, _⟩ => rfl)
  rw [el, er, ref_v22]

end Cert.ReferenceIdeal.RefVal

end
-- ==== Proof.Bridge.lean ====
/-
  The two programs' results are the same arrays.

  After the kernel's run the context array holds `G9` and the pair array `G8` of the launched arguments (each grid
  point writes back the restriction of these to its tile, and the tiles cover the arrays). The reference's two
  result terms, read at an index, are the same functions: its pair sum adds the rows in the other order, which
  is the same on the extended reals, and it spells the logistic as 1 / (1 + exp (−z)), which is the logistic by
  definition; its contraction over a last axis of extent one is the single term.
-/
import proofs.«157908_j61744449847590_1_alg».proof.Proof.KIRun
import proofs.«157908_j61744449847590_1_alg».proof.Proof.KIFinal
import proofs.«157908_j61744449847590_1_alg».proof.Proof.RefVal

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The kernel's run with its two results named. -/
theorem run : θ_run defs (onTc (τ := τ) (main (F := Ideal))) ⟨m, fun _ => 0, ρ⟩ (fun r => ∀ c : Dev nD,
      r.2.mem ((c.tc : Thread nD τ).loc main_v5_1) = G9 m c
      ∧ r.2.mem ((c.tc : Thread nD τ).loc main_v5_0) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 9).trans (final9 m c), ((h c).1 8).trans (final8 m c), args_kept m r h c⟩)
    (run_main m ρ)

open Cert.ReferenceIdeal.Read Cert.ReferenceIdeal.RefVal in
/-- The reference's context term of the same arguments is `G9`. -/
theorem ref_context (c : Dev nD) :
    val_main_v23 (F := Ideal) (a0 m c) (a1 m c) (a2 m c) (a3 m c) (a4 m c) (a5 m c) (a6 m c) = G9 m c := by
  funext y
  obtain ⟨b, i, h, rfl⟩ : ∃ (b : Fin 16) (i : Fin 96) (h : Fin 256), y = ix3 b i h := ⟨y 0, y 1, y 2, eq_ix3 y⟩
  rw [ref_ctx]
  rfl

open Cert.ReferenceIdeal.Read Cert.ReferenceIdeal.RefVal in
/-- The reference's pair term of the same argument is `G8`. -/
theorem ref_pairs (c : Dev nD) : val_main_v4 (F := Ideal) (a0 m c) = G8 m c := by
  funext y
  obtain ⟨b, i, j, h, rfl⟩ : ∃ (b : Fin 16) (i j : Fin 96) (h : Fin 256), y = ix4 b i j h := ⟨y 0, y 1, y 2, y 3, eq_ix4 y⟩
  rw [ref_pair]
  rfl

end Cert.KernelIdeal.HandValue

end
-- ==== Proof.lean ====
/-
  The certificate: the kernel (at the word level and idealized) and the jnp reference run to the end without fault
  and leave their arguments unchanged; idealizing the kernel rewrote nothing; and at the ideal instance the kernel
  and the reference, started from memories that agree on the seven arguments, end with equal results.

  The kernel tiles the computation over a 16 × 2 grid — batch by tile of 48 query rows — and computes, for each
  query row i and each row j of the batch, the pair sum x_i + x_j, a rectified two-term linear layer of it and of
  the pair's features, a logistic score, and the score-weighted sum of the rows x_j. The reference computes the
  same on whole arrays. On the extended reals the two agree entry by entry: sums are the same sums (the bf16
  conversions are the identity, a matrix product into a zero accumulator is the plain sum over the contracted
  axis), x_j + x_i = x_i + x_j, and 1 / (1 + exp (−z)) is the logistic. No entry's value needs the inputs finite.

  The kernel reads its first argument through two windows (a 48-row tile and the whole batch); its frame is the
  library's launch for windows that share an array, the argument's share split half and half between them.
-/
import proofs.«157908_j61744449847590_1_alg».proof.Defs
import proofs.«157908_j61744449847590_1_alg».proof.Proof.Gen.Kernel
import proofs.«157908_j61744449847590_1_alg».proof.Proof.Gen.KernelIdeal
import proofs.«157908_j61744449847590_1_alg».proof.Proof.Gen.ReferenceIdeal
import proofs.«157908_j61744449847590_1_alg».proof.Proof.Gen.Pre_finite_inputs
import proofs.«157908_j61744449847590_1_alg».proof.Proof.Gen.ReferenceIdeal.Run
import proofs.«157908_j61744449847590_1_alg».proof.Proof.Gen.ReferenceIdeal.Read
import proofs.«157908_j61744449847590_1_alg».proof.Proof.KRun
import proofs.«157908_j61744449847590_1_alg».proof.Proof.KIRun
import proofs.«157908_j61744449847590_1_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's results are `G9` and `G8` of its arguments; the reference's are its two terms of its own
    arguments, which agree with the kernel's, and those terms are `G9` and `G8`. -/
theorem algebraic : Cert.algebraic_KernelIdeal_ReferenceIdeal := by
  intro m ρ m' ρ' _ hagree
  refine ⟨fun c => Cert.KernelIdeal.HandValue.G9 m c, fun c => Cert.KernelIdeal.HandValue.G8 m c,
    Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, (hagree c).1, (hagree c).2.1, (hagree c).2.2.1, (hagree c).2.2.2.1,
      (hagree c).2.2.2.2.1, (hagree c).2.2.2.2.2.1, (hagree c).2.2.2.2.2.2]
    exact Cert.KernelIdeal.HandValue.ref_context m c
  · rw [Cert.ReferenceIdeal.Read.val_main_v4_eq, (hagree c).1]
    exact Cert.KernelIdeal.HandValue.ref_pairs m c

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
